-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1x128 : Shape := ⟨2, ![1, 128]⟩
abbrev S1x64 : Shape := ⟨2, ![1, 64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩

abbrev nBuf : Space → Nat
  | .hbm => 71
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1x128, .f32⟩
  | .hbm, ⟨13, _⟩ => ⟨S1x64, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1, .i32⟩
  | .hbm, ⟨23, _⟩ => ⟨S_, .i32⟩
  | .hbm, ⟨24, _⟩ => ⟨S1600000x1, .i32⟩
  | .hbm, ⟨25, _⟩ => ⟨S1600000x1, .i1⟩
  | .hbm, ⟨26, _⟩ => ⟨S1x1, .i32⟩
  | .hbm, ⟨27, _⟩ => ⟨S1600000x1, .i32⟩
  | .hbm, ⟨28, _⟩ => ⟨S1600000x1, .i1⟩
  | .hbm, ⟨29, _⟩ => ⟨S1600000x1, .i1⟩
  | .hbm, ⟨30, _⟩ => ⟨S_, .i1⟩
  | .hbm, ⟨31, _⟩ => ⟨S1600000, .i1⟩
  | .hbm, ⟨32, _⟩ => ⟨S1600000x128, .f32⟩
  | .hbm, ⟨33, _⟩ => ⟨S1600000x128, .i1⟩
  | .hbm, ⟨34, _⟩ => ⟨S_, .f32⟩
  | .hbm, ⟨35, _⟩ => ⟨S1600000x128, .f32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1, .i32⟩
  | .hbm, ⟨52, _⟩ => ⟨S_, .i32⟩
  | .hbm, ⟨53, _⟩ => ⟨S1600000x1, .i32⟩
  | .hbm, ⟨54, _⟩ => ⟨S1600000x1, .i1⟩
  | .hbm, ⟨55, _⟩ => ⟨S1x1, .i32⟩
  | .hbm, ⟨56, _⟩ => ⟨S1600000x1, .i32⟩
  | .hbm, ⟨57, _⟩ => ⟨S1600000x1, .i1⟩
  | .hbm, ⟨58, _⟩ => ⟨S1600000x1, .i1⟩
  | .hbm, ⟨59, _⟩ => ⟨S_, .i1⟩
  | .hbm, ⟨60, _⟩ => ⟨S1600000, .i1⟩
  | .hbm, ⟨61, _⟩ => ⟨S1600000x64, .f32⟩
  | .hbm, ⟨62, _⟩ => ⟨S1600000x64, .i1⟩
  | .hbm, ⟨63, _⟩ => ⟨S_, .f32⟩
  | .hbm, ⟨64, _⟩ => ⟨S1600000x64, .f32⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S128x64, .f32⟩
  | .local _ .vmem, ⟨8, _⟩ => ⟨S5000x128, .f32⟩
  | .local _ .vmem, ⟨9, _⟩ => ⟨S5000x128, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v6 : Ref sig .tc := ⟨.hbm, 36, rfl⟩
abbrev main_cst : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10_0 : Ref sig .tc := ⟨.hbm, 41, rfl⟩
abbrev main_v10_1 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v11 : Ref sig .tc := ⟨.hbm, 65, rfl⟩
abbrev main_cst_0 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S128_S1x128 : S128.ShapeCasts S1x128
  shapeCasts_S64_S1x64 : S64.ShapeCasts S1x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 57
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S1x1600000, .i32⟩
  | .hbm, ⟨35, _⟩ => ⟨S1600000, .i32⟩
  | .hbm, ⟨36, _⟩ => ⟨S1x1600000, .i32⟩
  | .hbm, ⟨37, _⟩ => ⟨S1600000, .i32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_1 : Ref sig .tc := ⟨.hbm, 38, rfl⟩
abbrev main_v25 : Ref sig .tc := ⟨.hbm, 39, rfl⟩
abbrev main_v26 : Ref sig .tc := ⟨.hbm, 40, rfl⟩
abbrev main_c_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  Two graph-convolution layers over one edge list, as functions of whole arrays over the extended reals.

  An edge list is a pair of rows of words: edge `t` carries the features of its source row to its destination row.
  `srcCol` is the column of source rows, a negative word moved up by the number of nodes, and `dstCol` the column
  of destination rows.  A gather reads the source row clamped into the table (`srcRow`); a scatter-add lands on the
  destination row read as a signed integer and drops an edge whose destination lies outside the table (`dstRow`).
  `segsum` is the two together: row `n` of the result is the sum, over the edges that land on `n`, of their source rows.
  One layer is `segsum f · W_rel + b + f · W_root`; the first layer is clipped below at zero.  The two programs this
  certificate compares differ in the second layer only: one projects the clipped rows through `W_rel` before the
  segment sum, the other after it (`outKer`, `outRef`), and in the order of the three summands of the first layer
  (`hiddenKer`, `hiddenRef`).
-/
import Idealize.ShloMosaic.Lib.ValueIdx
import Idealize.ShloMosaic.PureOps.Ideal

noncomputable section

namespace Cert.GraphConv

open Idealize.ShloMosaic Idealize.ShloMosaic.ValueIdx
open scoped BigOperators

/-! ## Shapes and their side conditions -/

abbrev SX : Shape := ⟨2, ![100000, 128]⟩
abbrev SH : Shape := ⟨2, ![100000, 64]⟩
abbrev SEI : Shape := ⟨2, ![2, 1600000]⟩
abbrev S1E : Shape := ⟨2, ![1, 1600000]⟩
abbrev SE : Shape := ⟨1, ![1600000]⟩
abbrev SE1 : Shape := ⟨2, ![1600000, 1]⟩
abbrev S0 : Shape := ⟨0, ![]⟩
abbrev S1 : Shape := ⟨1, ![1]⟩
abbrev S11 : Shape := ⟨2, ![1, 1]⟩

theorem slices_row0 : SEI.Slices ![0, 0] S1E := by decide
theorem slices_row1 : SEI.Slices ![1, 0] S1E := by decide
theorem casts_1E_E : S1E.ShapeCasts SE := by decide
theorem bcast_0_E : S0.BroadcastsInDim SE (![] : Fin 0 → Fin SE.rank) := by decide
theorem bcast_E_E1 : SE.BroadcastsInDim SE1 (![0] : Fin 1 → Fin SE1.rank) := by decide
theorem bcast_0_E1 : S0.BroadcastsInDim SE1 (![] : Fin 0 → Fin SE1.rank) := by decide
theorem bcast_1_11 : S1.BroadcastsInDim S11 (![1] : Fin 1 → Fin S11.rank) := by decide
theorem bcast_11_E1 : S11.BroadcastsInDim SE1 (![0, 1] : Fin 2 → Fin SE1.rank) := by decide
theorem reduces_E1_E : SE1.ReducesTo [1] SE := by decide
theorem pos_S0 : 0 < S0.numel := by decide

/-! ## The edge list's two columns -/

/-- Row `r` of the edge list as a vector of words. -/
def edgeRow0 (ei : IVec SEI 32) : IVec SE 32 := shapeCast SE (extractStridedSlice S1E ![0, 0] ei slices_row0) casts_1E_E
def edgeRow1 (ei : IVec SEI 32) : IVec SE 32 := shapeCast SE (extractStridedSlice S1E ![1, 0] ei slices_row1) casts_1E_E

/-- A negative word is moved up by the number of nodes (an index counted from the end). -/
def wrap (s : IVec SE 32) : IVec SE 32 :=
  select (cmpi .slt s (broadcastInDim SE ![] bcast_0_E (constantI S0 32 0#32)))
    (addi s (broadcastInDim SE ![] bcast_0_E (constantI S0 32 100000#32))) s

/-- The column of source rows the gathers read their start indices from. -/
def srcCol (ei : IVec SEI 32) : IVec SE1 32 := broadcastInDim SE1 ![0] bcast_E_E1 (wrap (edgeRow0 ei))
/-- The column of destination rows the scatters read their indices from. -/
def dstCol (ei : IVec SEI 32) : IVec SE1 32 := broadcastInDim SE1 ![0] bcast_E_E1 (edgeRow1 ei)

/-- Per edge: is its source row, as the column holds it, inside `[0, 99999]`? -/
def inTable (idx : IVec SE1 32) : IVec SE 1 :=
  Host.reduce IntOp.andi
    (andi (cmpi .sge idx (broadcastInDim SE1 ![] bcast_0_E1 (constantI S0 32 0#32)))
      (cmpi .sle idx (broadcastInDim SE1 ![0, 1] bcast_11_E1 (broadcastInDim S11 ![1] bcast_1_11 (constantI S1 32 99999#32)))))
    (constantI S0 1 1#1) reduces_E1_E pos_S0

/-- The table row edge `t`'s gather reads: its start index read signed and clamped into the table. -/
def srcRow (ei : IVec SEI 32) (t : Fin 1600000) : Fin 100000 :=
  ⟨min (srcCol ei (ix2 t 0)).toInt.toNat (100000 - 1), by omega⟩
/-- The row edge `t`'s scatter lands on, as a signed integer (outside `[0, 100000)` the edge is dropped). -/
def dstRow (ei : IVec SEI 32) (t : Fin 1600000) : ℤ := (dstCol ei (ix2 t 0)).toInt

/-! ## Arrays over the extended reals -/

/-- An `[a, b]` array of extended reals. -/
abbrev Arr (a b : ℕ) : Type := (⟨2, ![a, b]⟩ : Shape).Idx → EReal
/-- A row of `a` extended reals. -/
abbrev Row (a : ℕ) : Type := (⟨1, ![a]⟩ : Shape).Idx → EReal

/-- An extended real that is a real number. -/
def IsReal (v : EReal) : Prop := ∃ r : ℝ, v = (r : EReal)

/-- The first and second coordinate of a rank-2 index, typed by the extents. -/
abbrev c0 {a b : ℕ} (i : (⟨2, ![a, b]⟩ : Shape).Idx) : Fin a := ⟨(i 0).val, idx2_lt0 i⟩
abbrev c1 {a b : ℕ} (i : (⟨2, ![a, b]⟩ : Shape).Idx) : Fin b := ⟨(i 1).val, idx2_lt1 i⟩

/-- The one row of a `[1, a]` array. -/
def rowOf {a : ℕ} (b : Arr 1 a) : Row a := fun q => b (ix2 (0 : Fin 1) (⟨(q 0).val, (q 0).isLt⟩ : Fin a))

theorem rowOf_apply {a : ℕ} (b : Arr 1 a) (j : Fin a) : rowOf b (ix1 j) = b (ix2 0 j) := rfl

/-- The matrix product `[n, k] · [k, m]`. -/
def mm {n k m : ℕ} (a : Arr n k) (w : Arr k m) : Arr n m :=
  fun i => ∑ q : Fin k, a (ix2 (c0 i) q) * w (ix2 q (c1 i))

theorem mm_apply {n k m : ℕ} (a : Arr n k) (w : Arr k m) (p : Fin n) (j : Fin m) :
    mm a w (ix2 p j) = ∑ q : Fin k, a (ix2 p q) * w (ix2 q j) := rfl

/-- Row `n` of the segment sum: over the edges landing on `n`, the sum of their source rows of `f`. -/
def segsum {n e c : ℕ} (σ : Fin e → Fin n) (δ : Fin e → ℤ) (f : Arr n c) : Arr n c :=
  fun i => ∑ t : Fin e, if δ t = ((i 0).val : ℤ) then f (ix2 (σ t) (c1 i)) else 0

theorem segsum_apply {n e c : ℕ} (σ : Fin e → Fin n) (δ : Fin e → ℤ) (f : Arr n c) (p : Fin n) (j : Fin c) :
    segsum σ δ f (ix2 p j) = ∑ t : Fin e, if δ t = (p.val : ℤ) then f (ix2 (σ t) j) else 0 := rfl

/-- The first layer, the bias added between the two products. -/
def hiddenRef {n : ℕ} (A x : Arr n 128) (w1r : Arr 128 128) (b1 : Row 128) (w1o : Arr 128 128) : Arr n 128 :=
  fun i => max (mm A w1r i + b1 (ix1 (c1 i)) + mm x w1o i) 0
/-- The first layer, the bias added after the two products. -/
def hiddenKer {n : ℕ} (A x : Arr n 128) (w1r : Arr 128 128) (b1 : Row 128) (w1o : Arr 128 128) : Arr n 128 :=
  fun i => max (mm A w1r i + mm x w1o i + b1 (ix1 (c1 i))) 0

/-- The second layer from an aggregate that is already projected: `A2 + b + h · W_root`. -/
def layer2 {n : ℕ} (A2 : Arr n 64) (h : Arr n 128) (b2 : Row 64) (w2o : Arr 128 64) : Arr n 64 :=
  fun i => A2 i + b2 (ix1 (c1 i)) + mm h w2o i

/-- The second layer, the segment sum taken before the projection. -/
def outRef {n e : ℕ} (σ : Fin e → Fin n) (δ : Fin e → ℤ) (h : Arr n 128) (w2r : Arr 128 64) (b2 : Row 64) (w2o : Arr 128 64) : Arr n 64 :=
  layer2 (mm (segsum σ δ h) w2r) h b2 w2o
/-- The second layer, the rows projected before the segment sum. -/
def outKer {n e : ℕ} (σ : Fin e → Fin n) (δ : Fin e → ℤ) (h : Arr n 128) (w2r : Arr 128 64) (b2 : Row 64) (w2o : Arr 128 64) : Arr n 64 :=
  layer2 (segsum σ δ (mm h w2r)) h b2 w2o

/-- Both layers, the reference's way. -/
def netRef {n e : ℕ} (σ : Fin e → Fin n) (δ : Fin e → ℤ) (x : Arr n 128) (w1r : Arr 128 128) (b1 : Row 128) (w1o : Arr 128 128)
    (w2r : Arr 128 64) (b2 : Row 64) (w2o : Arr 128 64) : Arr n 64 :=
  outRef σ δ (hiddenRef (segsum σ δ x) x w1r b1 w1o) w2r b2 w2o
/-- Both layers, the kernel's way. -/
def netKer {n e : ℕ} (σ : Fin e → Fin n) (δ : Fin e → ℤ) (x : Arr n 128) (w1r : Arr 128 128) (b1 : Row 128) (w1o : Arr 128 128)
    (w2r : Arr 128 64) (b2 : Row 64) (w2o : Arr 128 64) : Arr n 64 :=
  outKer σ δ (hiddenKer (segsum σ δ x) x w1r b1 w1o) w2r b2 w2o

end Cert.GraphConv

end
-- ==== Proof.Algebra.lean ====
/-
  The two spellings of the network agree on real inputs.

  The first layer's three summands commute.  In the second layer the segment sum and the projection commute:
  `∑_{t lands on n} ∑_k h (σ t, k) · w (k, c) = ∑_k (∑_{t lands on n} h (σ t, k)) · w (k, c)`, which on the extended reals
  needs every `h` and `w` entry to be a real number (a product does not distribute over a sum that mixes infinities).
-/
import proofs.«407079_j30562987278567_2_alg».proof.Proof.Spec

noncomputable section

namespace Cert.GraphConv

open Idealize.ShloMosaic Idealize.ShloMosaic.ValueIdx
open scoped BigOperators

/-! ## Closure of "is a real number" -/

theorem isReal_zero : IsReal (0 : EReal) := ⟨0, EReal.coe_zero.symm⟩

theorem isReal_add {a b : EReal} (ha : IsReal a) (hb : IsReal b) : IsReal (a + b) := by
  obtain ⟨r, rfl⟩ := ha
  obtain ⟨s, rfl⟩ := hb
  exact ⟨r + s, (EReal.coe_add r s).symm⟩

theorem isReal_mul {a b : EReal} (ha : IsReal a) (hb : IsReal b) : IsReal (a * b) := by
  obtain ⟨r, rfl⟩ := ha
  obtain ⟨s, rfl⟩ := hb
  exact ⟨r * s, (EReal.coe_mul r s).symm⟩

theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

theorem isReal_max_zero {a : EReal} (ha : IsReal a) : IsReal (max a 0) := by
  rcases le_total a 0 with h | h
  · rw [max_eq_right h]; exact isReal_zero
  · rw [max_eq_left h]; exact ha

theorem isReal_ite_zero {p : Prop} [Decidable p] {a : EReal} (ha : IsReal a) : IsReal (if p then a else 0) := by
  by_cases hp : p
  · rw [if_pos hp]; exact ha
  · rw [if_neg hp]; exact isReal_zero

/-- The coercion of a finite real sum is the sum of the coercions. -/
theorem coe_sum_real {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The coercion passes through an if-then-else with zero. -/
theorem coe_ite_zero (p : Prop) [Decidable p] (a : ℝ) :
    (if p then (a : EReal) else 0) = ((if p then a else 0 : ℝ) : EReal) := by
  by_cases hp : p
  · rw [if_pos hp, if_pos hp]
  · rw [if_neg hp, if_neg hp, EReal.coe_zero]

/-- Over the reals: a guarded sum of products is the sum of the guarded sums times the common factors. -/
theorem real_guard_swap {e k : ℕ} (c : Fin e → Prop) [DecidablePred c] (a : Fin e → Fin k → ℝ) (b : Fin k → ℝ) :
    (∑ t : Fin e, if c t then ∑ q : Fin k, a t q * b q else 0)
      = ∑ q : Fin k, (∑ t : Fin e, if c t then a t q else 0) * b q := by
  simp_rw [Finset.sum_mul]
  rw [Finset.sum_comm]
  refine Finset.sum_congr rfl fun t _ => ?_
  by_cases hc : c t
  · simp only [if_pos hc]
  · simp only [if_neg hc, zero_mul, Finset.sum_const_zero]

theorem hiddenKer_eq_hiddenRef {n : ℕ} (A x : Arr n 128) (w1r : Arr 128 128) (b1 : Row 128) (w1o : Arr 128 128) :
    hiddenKer A x w1r b1 w1o = hiddenRef A x w1r b1 w1o := by
  funext i
  exact congrArg (fun v => max v 0) (add_right_comm _ _ _)

theorem isReal_segsum {n e c : ℕ} (σ : Fin e → Fin n) (δ : Fin e → ℤ) (f : Arr n c) (hf : ∀ i, IsReal (f i)) :
    ∀ i, IsReal (segsum σ δ f i) := by
  intro i
  unfold segsum
  exact isReal_sum _ _ fun t _ => isReal_ite_zero (hf _)

theorem isReal_mm {n k m : ℕ} (a : Arr n k) (w : Arr k m) (ha : ∀ i, IsReal (a i)) (hw : ∀ i, IsReal (w i)) :
    ∀ i, IsReal (mm a w i) := by
  intro i
  unfold mm
  exact isReal_sum _ _ fun q _ => isReal_mul (ha _) (hw _)

theorem isReal_hiddenRef {n : ℕ} (A x : Arr n 128) (w1r : Arr 128 128) (b1 : Row 128) (w1o : Arr 128 128)
    (hA : ∀ i, IsReal (A i)) (hx : ∀ i, IsReal (x i)) (hw1r : ∀ i, IsReal (w1r i)) (hb1 : ∀ i, IsReal (b1 i))
    (hw1o : ∀ i, IsReal (w1o i)) : ∀ i, IsReal (hiddenRef A x w1r b1 w1o i) := by
  intro i
  unfold hiddenRef
  exact isReal_max_zero (isReal_add (isReal_add (isReal_mm A w1r hA hw1r i) (hb1 _)) (isReal_mm x w1o hx hw1o i))

/-- The segment sum commutes with a projection, on real entries. -/
theorem segsum_mm {n e k m : ℕ} (σ : Fin e → Fin n) (δ : Fin e → ℤ) (h : Arr n k) (w : Arr k m)
    (hh : ∀ i, IsReal (h i)) (hw : ∀ i, IsReal (w i)) : segsum σ δ (mm h w) = mm (segsum σ δ h) w := by
  classical
  choose hR hhR using hh
  choose wR hwR using hw
  funext i
  obtain ⟨p, j, rfl⟩ : ∃ (p : Fin n) (j : Fin m), i = ix2 p j := ⟨i 0, i 1, eq_ix2 i⟩
  rw [segsum_apply, mm_apply]
  -- each projected row and each aggregated entry is the coercion of a real sum
  have e1 : ∀ t : Fin e, mm h w (ix2 (σ t) j)
      = ((∑ q : Fin k, hR (ix2 (σ t) q) * wR (ix2 q j) : ℝ) : EReal) := by
    intro t
    rw [mm_apply, coe_sum_real]
    refine Finset.sum_congr rfl fun q _ => ?_
    rw [hhR, hwR, EReal.coe_mul]
  have e2 : ∀ q : Fin k, segsum σ δ h (ix2 p q)
      = ((∑ t : Fin e, (if δ t = (p.val : ℤ) then hR (ix2 (σ t) q) else 0) : ℝ) : EReal) := by
    intro q
    rw [segsum_apply, coe_sum_real]
    refine Finset.sum_congr rfl fun t _ => ?_
    rw [hhR, coe_ite_zero]
  have lhs : (∑ t : Fin e, if δ t = (p.val : ℤ) then mm h w (ix2 (σ t) j) else 0)
      = ((∑ t : Fin e, (if δ t = (p.val : ℤ) then ∑ q : Fin k, hR (ix2 (σ t) q) * wR (ix2 q j) else 0) : ℝ) : EReal) := by
    rw [coe_sum_real]
    refine Finset.sum_congr rfl fun t _ => ?_
    rw [e1, coe_ite_zero]
  have rhs : (∑ q : Fin k, segsum σ δ h (ix2 p q) * w (ix2 q j))
      = ((∑ q : Fin k, (∑ t : Fin e, (if δ t = (p.val : ℤ) then hR (ix2 (σ t) q) else 0)) * wR (ix2 q j) : ℝ) : EReal) := by
    rw [coe_sum_real]
    refine Finset.sum_congr rfl fun q _ => ?_
    rw [e2, hwR, EReal.coe_mul]
  rw [lhs, rhs]
  exact congrArg _ (real_guard_swap (fun t => δ t = (p.val : ℤ)) (fun t q => hR (ix2 (σ t) q)) (fun q => wR (ix2 q j)))

/-- The two spellings of the network are one function of real inputs. -/
theorem netKer_eq_netRef {n e : ℕ} (σ : Fin e → Fin n) (δ : Fin e → ℤ) (x : Arr n 128) (w1r : Arr 128 128) (b1 : Row 128)
    (w1o : Arr 128 128) (w2r : Arr 128 64) (b2 : Row 64) (w2o : Arr 128 64)
    (hx : ∀ i, IsReal (x i)) (hw1r : ∀ i, IsReal (w1r i)) (hb1 : ∀ i, IsReal (b1 i)) (hw1o : ∀ i, IsReal (w1o i))
    (hw2r : ∀ i, IsReal (w2r i)) :
    netKer σ δ x w1r b1 w1o w2r b2 w2o = netRef σ δ x w1r b1 w1o w2r b2 w2o := by
  unfold netKer netRef outKer outRef
  rw [hiddenKer_eq_hiddenRef]
  rw [segsum_mm σ δ _ w2r
    (isReal_hiddenRef _ x w1r b1 w1o (isReal_segsum σ δ x hx) hx hw1r hb1 hw1o) hw2r]

end Cert.GraphConv

end
-- ==== Proof.PreFacts.lean ====
/-
  What the precondition says, element by element: every float input is a real number, and every source row of the
  edge list lies in `[0, 100000)`.  From the second: the column of source rows is the edge list's first row
  unchanged (no word is negative, so none is moved), every edge's source lies inside the table, and a read that is
  replaced by a fill value outside the table is the plain gather.
-/
import proofs.«407079_j30562987278567_2_alg».proof.Pre_finite_inputs
import proofs.«407079_j30562987278567_2_alg».proof.Proof.Spec
import Idealize.ShloMosaic.Lib.ReduceAll
import Idealize.ShloMosaic.Lib.StableHlo.Predicate
import Idealize.ShloMosaic.Lib.Pipeline.Value
import Idealize.ShloMosaic.PureOps.Ideal.Laws

noncomputable section

namespace Cert.PreFacts

open Idealize.ShloMosaic Idealize.ShloMosaic.ValueIdx Cert.GraphConv
open scoped BigOperators

/-! ## One entry of each test, read back -/

/-- The scalar shape has one index. -/
local instance subsingleton_idx0 : Subsingleton (⟨0, ![]⟩ : Shape).Idx := ⟨fun a b => funext fun d => d.elim0⟩

/-- An extended real whose absolute value `max v (-v)` lies strictly below the top element is a real number:
    the bottom and the top element both have absolute value the top element. -/
theorem isReal_of_abs_lt_top (v : EReal) (h : Ideal.cmp .olt (max v (-v)) (Ideal.ofBits .f32 0x7F800000#32) = 1#1) : IsReal v := by
  have htop : Ideal.ofBits .f32 0x7F800000#32 = ⊤ := by simp [Ideal.ofBits, Ideal.ieee]
  rw [htop] at h
  induction v using EReal.rec with
  | bot => simp [Ideal.cmp] at h
  | coe r => exact ⟨r, rfl⟩
  | top => simp [Ideal.cmp] at h

/-- One entry of the test `|a| < +∞` of an array against the broadcast top element. -/
theorem isReal_of_test {s : Shape} (a : FVec Ideal s .f32) (hb : (⟨0, ![]⟩ : Shape).BroadcastsInDim s (![] : Fin 0 → Fin s.rank)) (i : s.Idx)
    (h : cmpf .olt (Host.absf a) (broadcastInDim s ![] hb (constant (⟨0, ![]⟩ : Shape) .f32 0x7F800000#32)) i = 1#1) : IsReal (a i) :=
  isReal_of_abs_lt_top (a i) h

/-- A word that passes both signed tests `0 ≤ w` and `w < 100000` lies in the range, read signed. -/
theorem range_of_tests (w : BitVec 32) (h0 : IntOp.cmpi .sge w 0#32 = 1#1) (h1 : IntOp.cmpi .slt w 100000#32 = 1#1) :
    0 ≤ w.toInt ∧ w.toInt < 100000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (100000#32 : BitVec 32).toInt = 100000 := by decide
  rw [e0] at h0; rw [e1] at h1
  exact ⟨h0, h1⟩

/-- A word in the range, read signed, is not negative and passes the two signed tests `0 ≤ w` and `w ≤ 99999`. -/
theorem tests_of_range (w : BitVec 32) (h : 0 ≤ w.toInt ∧ w.toInt < 100000) :
    IntOp.cmpi .slt w 0#32 = 0#1 ∧ IntOp.cmpi .sge w 0#32 = 1#1 ∧ IntOp.cmpi .sle w 99999#32 = 1#1 := by
  have e0 : (0#32 : BitVec 32).toInt = 0 := by decide
  have e1 : (99999#32 : BitVec 32).toInt = 99999 := by decide
  obtain ⟨h0, h1⟩ := h
  refine ⟨?_, ?_, ?_⟩
  · unfold IntOp.cmpi
    have : w.slt 0#32 = false := by simp only [BitVec.slt, e0, decide_eq_false_iff_not]; omega
    rw [this]; rfl
  · unfold IntOp.cmpi
    rw [StableHlo.Predicate.ofBool_eq_one_iff]
    simp only [BitVec.sle, e0, decide_eq_true_eq]; exact h0
  · unfold IntOp.cmpi
    rw [StableHlo.Predicate.ofBool_eq_one_iff]
    simp only [BitVec.sle, e1, decide_eq_true_eq]; omega

/-- Row 0 of the edge list, as a vector, reads the edge list at `(0, t)`: the slice keeps row 0 and the cast to a
    vector keeps the row-major position `t`. -/
theorem edgeRow0_apply (ei : IVec SEI 32) (t : Fin 1600000) : edgeRow0 ei (ix1 t) = ei (ix2 (0 : Fin 2) t) := by
  unfold edgeRow0
  refine (shapeCast_apply _ casts_1E_E (ix1 t) (ix2 (0 : Fin 1) t) ?_).trans ?_
  · rw [Shape.rowMajor_val_one, Shape.rowMajor_val_two]
    show (0 : ℕ) * _ + t.val = t.val
    omega
  · refine extractStridedSlice_apply _ ei slices_row0 (ix2 (0 : Fin 1) t) (ix2 (0 : Fin 2) t) fun a => ?_
    match a with
    | ⟨0, _⟩ => rfl
    | ⟨1, _⟩ => show t.val = 0 + t.val; omega

/-- A left fold by `and` from 1 over entries that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

section
variable [hP : Cert.Pre_finite_inputs.Facts]

/-- The precondition, read: the seven float arrays hold real numbers and the edge list's first row holds rows of the table. -/
theorem of_pre (x : FVec Ideal SX .f32) (ei : IVec SEI 32) (w1r : FVec Ideal ⟨2, ![128, 128]⟩ .f32) (b1 : FVec Ideal ⟨1, ![128]⟩ .f32)
    (w1o : FVec Ideal ⟨2, ![128, 128]⟩ .f32) (w2r : FVec Ideal ⟨2, ![128, 64]⟩ .f32) (b2 : FVec Ideal ⟨1, ![64]⟩ .f32)
    (w2o : FVec Ideal ⟨2, ![128, 64]⟩ .f32)
    (h : Cert.Pre_finite_inputs.fn (F := Ideal) x ei w1r b1 w1o w2r b2 w2o = fun _ => 1#1) :
    (∀ i, IsReal (x i)) ∧ (∀ i, IsReal (w1r i)) ∧ (∀ i, IsReal (b1 i)) ∧ (∀ i, IsReal (w1o i)) ∧ (∀ i, IsReal (w2r i))
      ∧ (∀ i, IsReal (b2 i)) ∧ (∀ i, IsReal (w2o i))
      ∧ (∀ t : Fin 1600000, 0 ≤ (ei (ix2 (0 : Fin 2) t)).toInt ∧ (ei (ix2 (0 : Fin 2) t)).toInt < 100000) := by
  have e := congrFun h ValueIdx.ix0
  dsimp only [Cert.Pre_finite_inputs.fn, Cert.Pre_finite_inputs.fn_part1, Cert.Pre_finite_inputs.fn_part2] at e
  -- the scalar conjunction, split into its eight reductions
  obtain ⟨e, hei⟩ := IntOp.andi_eq_one.1 e
  obtain ⟨e, hw2o⟩ := IntOp.andi_eq_one.1 e
  obtain ⟨e, hb2⟩ := IntOp.andi_eq_one.1 e
  obtain ⟨e, hw2r⟩ := IntOp.andi_eq_one.1 e
  obtain ⟨e, hw1o⟩ := IntOp.andi_eq_one.1 e
  obtain ⟨e, hb1⟩ := IntOp.andi_eq_one.1 e
  obtain ⟨hx, hw1r⟩ := IntOp.andi_eq_one.1 e
  refine ⟨fun i => isReal_of_test x _ i (Host.reduce_andi_all _ _ _ _ _ hx i),
    fun i => isReal_of_test w1r _ i (Host.reduce_andi_all _ _ _ _ _ hw1r i),
    fun i => isReal_of_test b1 _ i (Host.reduce_andi_all _ _ _ _ _ hb1 i),
    fun i => isReal_of_test w1o _ i (Host.reduce_andi_all _ _ _ _ _ hw1o i),
    fun i => isReal_of_test w2r _ i (Host.reduce_andi_all _ _ _ _ _ hw2r i),
    fun i => isReal_of_test b2 _ i (Host.reduce_andi_all _ _ _ _ _ hb2 i),
    fun i => isReal_of_test w2o _ i (Host.reduce_andi_all _ _ _ _ _ hw2o i), fun t => ?_⟩
  -- entry `t` of the last test: both signed compares of row 0's word `t` hold
  have ht := Host.reduce_andi_all _ _ _ _ _ hei (ix1 t)
  obtain ⟨h0, h1⟩ := IntOp.andi_eq_one.1 ht
  have hr := range_of_tests (edgeRow0 ei (ix1 t)) h0 h1
  rwa [edgeRow0_apply] at hr

end

/-- With every source row inside the table, each edge passes the range test. -/
theorem inTable_srcCol (ei : IVec SEI 32)
    (hsrc : ∀ t : Fin 1600000, 0 ≤ (ei (ix2 (0 : Fin 2) t)).toInt ∧ (ei (ix2 (0 : Fin 2) t)).toInt < 100000) :
    inTable (srcCol ei) = fun _ => 1#1 := by
  funext j
  unfold inTable
  rw [Host.reduce_eq_foldl]
  refine foldl_andi_one _ (fun i => ?_) _
  -- entry `(t, u)` of the column is word `t` of row 0, which is not negative and so is left where it is
  obtain ⟨t, u, rfl⟩ : ∃ (t : Fin 1600000) (u : Fin 1), i = ix2 t u := ⟨i 0, i 1, eq_ix2 i⟩
  obtain ⟨hlt, hge, hle⟩ := tests_of_range _ (hsrc t)
  have hcol : srcCol ei (ix2 t u) = ei (ix2 (0 : Fin 2) t) := by
    unfold srcCol
    refine (broadcastInDim_apply _ bcast_E_E1 _ (ix2 t u) (ix1 t) fun a => ?_).trans ?_
    · match a with
      | ⟨0, _⟩ => exact (if_neg (show ¬ (1600000 : ℕ) = 1 by decide)).symm
    · show Scalar.select (IntOp.cmpi .slt (edgeRow0 ei (ix1 t)) 0#32) (IntOp.addi (edgeRow0 ei (ix1 t)) 100000#32) (edgeRow0 ei (ix1 t)) = _
      rw [edgeRow0_apply, hlt, select_zero]
  show IntOp.andi (IntOp.cmpi .sge (srcCol ei (ix2 t u)) 0#32) (IntOp.cmpi .sle (srcCol ei (ix2 t u)) 99999#32) = 1#1
  rw [hcol, hge, hle]
  rfl

/-- A read replaced by a fill value where the per-edge test fails is the plain read when every edge passes. -/
theorem select_rows_of_all {α : Type} {C : ℕ} (hb : SE.BroadcastsInDim ⟨2, ![1600000, C]⟩ (![0] : Fin 1 → Fin (⟨2, ![1600000, C]⟩ : Shape).rank))
    (mask : IVec SE 1) (hm : mask = fun _ => 1#1) (g fill : (⟨2, ![1600000, C]⟩ : Shape).Idx → α) :
    select (broadcastInDim ⟨2, ![1600000, C]⟩ ![0] hb mask) g fill = g := by
  subst hm
  funext i
  show Scalar.select 1#1 (g i) (fill i) = g i
  exact select_one _ _

end Cert.PreFacts

end
-- ==== Proof.LibRowTake.lean ====
/-
  A gather of whole rows and a scatter-add of whole rows, read at an index.

  The table is `[N, C]`, the start indices a column `[E, 1]` of words, the gathered or scattered rows `[E, C]`:
  what `table[idx]` and `segment_sum` lower to.  The gather reads, at `(t, j)`, the table at row `idx t` read as a
  signed integer and clamped into `[0, N - 1]`, column `j`.  The scatter-add holds, at `(p, j)`, the operand there
  plus the sum over the edges `t` whose index, read signed, is `p`, of the update at `(t, j)`; an edge whose index
  lies outside `[0, N)` lands nowhere.
-/
import Idealize.ShloMosaic.Lib.ValueIdx
import Idealize.ShloMosaic.PureOps.Ideal.Laws

noncomputable section

namespace Cert.LibRowTake

open Idealize.ShloMosaic Idealize.ShloMosaic.ValueIdx
open scoped BigOperators

variable {α : Type} {N E C w : ℕ}

/-- The row gather at `(t, j)`: the table at the start index of edge `t`, read signed and clamped, column `j`. -/
theorem gather_rows_apply (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, C]⟩ : Shape).Idx → α) (idx : IVec ⟨2, ![E, 1]⟩ w) (t : Fin E) (j : Fin C) :
    Host.gather d x idx (ix2 t j)
      = x (ix2 (⟨min (idx (ix2 t (0 : Fin 1))).toInt.toNat (N - 1), by omega⟩ : Fin N) j) := by
  unfold Host.gather
  congr 1
  funext a
  apply Fin.ext
  have hb : ∀ a : Fin 2, a ∉ d.operandBatchingDims := by intro a; rw [hob]; exact List.not_mem_nil
  -- the result's batch axes are axis 0 alone, its offset axes axis 1 alone
  have hbd : ∀ X : Fin 2, X ∈ d.batchDims → X = 0 := by
    intro X hX
    have h1 : X ∉ d.offsetDims := of_decide_eq_true (List.mem_filter.1 hX).2
    rw [hoff, List.mem_singleton] at h1
    match X with
    | ⟨0, _⟩ => rfl
    | ⟨1, _⟩ => exact absurd rfl h1
  have hod : ∀ X : Fin 2, X ∈ d.offsetDims → X = 1 := by
    intro X hX; rw [hoff] at hX; exact List.mem_singleton.mp hX
  obtain rfl | rfl : a = (0 : Fin 2) ∨ a = (1 : Fin 2) := by
    match a with
    | ⟨0, _⟩ => exact Or.inl rfl
    | ⟨1, _⟩ => exact Or.inr rfl
  · -- axis 0, collapsed: the start index of edge `t`, clamped; no batching or offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes 0) = min (idx (ix2 t (0 : Fin 1))).toInt.toNat (N - 1)
    rw [hsl]
    congr 3
    congr 1
    funext b
    match b with
    | ⟨0, _⟩ =>
      -- the batch coordinate: the result's axis 0 reads the start indices' axis 0
      unfold GatherDims.siIdx
      rw [dif_neg (by rw [hivd]; simp)]
      unfold GatherDims.siCoord
      apply Fin.ext
      simp only [Fin.val_cast]
      have e : ∀ X : Fin 2, X ∈ d.batchDims → ((ix2 t j : (⟨2, ![E, C]⟩ : Shape).Idx) X).val = t.val := by
        intro X hX; rw [hbd X hX]
      exact e _ (List.getElem_mem _)
    | ⟨1, _⟩ =>
      unfold GatherDims.siIdx
      rw [dif_pos (by rw [hivd])]
      apply Fin.ext
      show List.idxOf (0 : Fin 2) d.startIndexMap = 0
      rw [hsim]; simp
  · -- axis 1, kept and not start-indexed: the start is 0, the offset coordinate the result's column
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb _), Nat.add_zero, GatherDims.start,
      dif_neg hm, Nat.zero_add]
    unfold GatherDims.offCoord
    rw [dif_pos hk]
    have e : ∀ X : Fin 2, X ∈ d.offsetDims → ((ix2 t j : (⟨2, ![E, C]⟩ : Shape).Idx) X).val = j.val := by
      intro X hX; rw [hod X hX]
    exact e _ (List.getElem_mem _)

/-- The row scatter-add at `(p, j)`, over the extended reals: the operand plus the updates of the edges that land on `p`. -/
theorem scatterAdd_rows_apply (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : FVec Ideal ⟨2, ![N, C]⟩ .f32) (idx : IVec ⟨2, ![E, 1]⟩ w) (upd : FVec Ideal ⟨2, ![E, C]⟩ .f32) (p : Fin N) (j : Fin C) :
    Host.scatterAdd d x idx upd (ix2 p j)
      = x (ix2 p j) + ∑ t : Fin E, if (idx (ix2 t (0 : Fin 1))).toInt = (p.val : ℤ) then upd (ix2 t j) else 0 := by
  -- the updates' scatter axes are axis 0 alone, their window axes axis 1 alone
  have hus : ∀ X : Fin 2, X ∈ d.uScatter → X = 0 := by
    intro X hX
    have h1 : X ∉ d.updateWindowDims := of_decide_eq_true (List.mem_filter.1 hX).2
    rw [huw, List.mem_singleton] at h1
    match X with
    | ⟨0, _⟩ => rfl
    | ⟨1, _⟩ => exact absurd rfl h1
  have huwd : ∀ X : Fin 2, X ∈ d.updateWindowDims → X = 1 := by
    intro X hX; rw [huw] at hX; exact List.mem_singleton.mp hX
  have hmk : ∀ a : Fin 2, a ∈ d.sKept ↔ a ∉ d.insertedWindowDims := by
    intro a; simp [ScatterDims.sKept, Shape.kept, List.mem_filter, List.mem_finRange]
  -- the start on axis 0 is the index of the edge read signed, on axis 1 it is 0
  have hs0 : ∀ (t : Fin E) (q : Fin C), d.start (ix2 t q) idx 0 = (idx (ix2 t (0 : Fin 1))).toInt := by
    intro t q
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have e : ∀ X : Fin 2, X ∈ d.uScatter → ((ix2 t q : (⟨2, ![E, C]⟩ : Shape).Idx) X).val = t.val := by
        intro X hX; rw [hus X hX]
      exact e _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hs1 : ∀ j' : (⟨2, ![E, C]⟩ : Shape).Idx, d.start j' idx 1 = 0 := by
    intro j'
    have hm : (1 : Fin 2) ∉ d.scatterDimsToOperandDims := by rw [hsd]; simp
    unfold ScatterDims.start
    rw [dif_neg hm]
  -- the window coordinate on axis 0 (inserted) is 0, on axis 1 the update's column
  have hw0 : ∀ j' : (⟨2, ![E, C]⟩ : Shape).Idx, d.window j' 0 = 0 := by
    intro j'
    have hk : (0 : Fin 2) ∉ d.sKept := by rw [hmk, hiw]; simp
    unfold ScatterDims.window
    rw [dif_neg hk]
  have hw1 : ∀ (t : Fin E) (q : Fin C), d.window (ix2 t q) 1 = q.val := by
    intro t q
    have hk : (1 : Fin 2) ∈ d.sKept := by rw [hmk, hiw]; simp
    unfold ScatterDims.window
    rw [dif_pos hk]
    have e : ∀ X : Fin 2, X ∈ d.updateWindowDims → ((ix2 t q : (⟨2, ![E, C]⟩ : Shape).Idx) X).val = q.val := by
      intro X hX; rw [huwd X hX]
    exact e _ (List.getElem_mem _)
  -- an update lands on `(p, j)` exactly when its edge's index, read signed, is `p` and its column is `j`
  have hkey : ∀ (t : Fin E) (q : Fin C), d.resultIdx? (ix2 t q) idx = some (ix2 p j)
      ↔ ((idx (ix2 t (0 : Fin 1))).toInt = (p.val : ℤ) ∧ q = j) := by
    intro t q
    unfold ScatterDims.resultIdx?
    constructor
    · intro h
      split at h
      · next hall =>
        have hf := Option.some.inj h
        have h0 : (d.start (ix2 t q) idx 0 + (d.window (ix2 t q) 0 : ℤ)).toNat = p.val :=
          congrArg (fun f : (⟨2, ![N, C]⟩ : Shape).Idx => (f 0).val) hf
        have h1 : (d.start (ix2 t q) idx 1 + (d.window (ix2 t q) 1 : ℤ)).toNat = j.val :=
          congrArg (fun f : (⟨2, ![N, C]⟩ : Shape).Idx => (f 1).val) hf
        have hp0 := (hall 0).1
        rw [hs0, hw0] at h0 hp0
        rw [hs1, hw1] at h1
        refine ⟨by omega, Fin.ext (by omega)⟩
      · exact absurd h (by simp)
    · rintro ⟨hp, rfl⟩
      have hall : ∀ a : Fin 2, 0 ≤ d.start (ix2 t q) idx a + (d.window (ix2 t q) a : ℤ) ∧
          d.start (ix2 t q) idx a + (d.window (ix2 t q) a : ℤ) < ((⟨2, ![N, C]⟩ : Shape).size a : ℤ) := by
        intro a
        obtain rfl | rfl : a = (0 : Fin 2) ∨ a = (1 : Fin 2) := by
          match a with
          | ⟨0, _⟩ => exact Or.inl rfl
          | ⟨1, _⟩ => exact Or.inr rfl
        · rw [hs0, hw0, hp]
          have : ((⟨2, ![N, C]⟩ : Shape).size 0) = N := rfl
          rw [this]; have := p.isLt; omega
        · rw [hs1, hw1]
          have : ((⟨2, ![N, C]⟩ : Shape).size 1) = C := rfl
          rw [this]; have := q.isLt; omega
      rw [dif_pos hall]
      congr 1
      funext a
      apply Fin.ext
      obtain rfl | rfl : a = (0 : Fin 2) ∨ a = (1 : Fin 2) := by
        match a with
        | ⟨0, _⟩ => exact Or.inl rfl
        | ⟨1, _⟩ => exact Or.inr rfl
      · show (d.start (ix2 t q) idx 0 + (d.window (ix2 t q) 0 : ℤ)).toNat = p.val
        rw [hs0, hw0, hp]; omega
      · show (d.start (ix2 t q) idx 1 + (d.window (ix2 t q) 1 : ℤ)).toNat = q.val
        rw [hs1, hw1]; omega
  show x (ix2 p j) + ∑ j' ∈ Finset.univ.filter (fun j' => d.resultIdx? j' idx = some (ix2 p j)), upd j' = _
  congr 1
  rw [Finset.sum_filter, sum_idx2]
  refine Finset.sum_congr rfl fun t _ => ?_
  by_cases hp : (idx (ix2 t (0 : Fin 1))).toInt = (p.val : ℤ)
  · rw [if_pos hp]
    have : ∀ q : Fin C, (if d.resultIdx? (ix2 t q) idx = some (ix2 p j) then upd (ix2 t q) else 0)
        = if q = j then upd (ix2 t q) else 0 := by
      intro q
      refine if_congr ?_ rfl rfl
      rw [hkey]; exact and_iff_right hp
    rw [Finset.sum_congr rfl fun q _ => this q, Finset.sum_ite_eq' Finset.univ j, if_pos (Finset.mem_univ j)]
  · rw [if_neg hp]
    refine Finset.sum_eq_zero fun q _ => ?_
    rw [if_neg]
    rw [hkey]; exact fun h => hp h.1

end Cert.LibRowTake

end
-- ==== Proof.KerHost.lean ====
/-
  What the kernel's buffers hold at the boundaries of its two pallas_calls.

  Between the launch and the first call the host reads the edge list's two rows, gathers the node features along the
  source column — a fill value on an edge whose source row is outside the table — and adds each gathered row onto
  its destination row (`aggK128`).  Between the two calls it does the same with the first call's second output, 64
  wide (`aggK64`).  Under "every source row lies inside the table" the fill never happens, and both are the segment
  sum of the specification.  Everything else a call reads is an argument array as launched, a bias row reshaped to
  one row, or the first call's output.
-/
import proofs.«407079_j30562987278567_2_alg».proof.Proof.Gen.KernelIdeal.Frame
import proofs.«407079_j30562987278567_2_alg».proof.Proof.Spec
import proofs.«407079_j30562987278567_2_alg».proof.Proof.PreFacts
import proofs.«407079_j30562987278567_2_alg».proof.Proof.LibRowTake
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

namespace Cert.KernelIdeal.KerHost

open Idealize.ShloMosaic Idealize.ShloMosaic.TcCoe Idealize.SL.Sem Idealize.ShloMosaic.ValueIdx Idealize.ShloMosaic.StableHlo
open Cert.KernelIdeal Cert.KernelIdeal.Gen Cert.GraphConv
open scoped BigOperators

/-! ## The two aggregations as the host spells them -/

/-- The rows of `f` along the source column, a fill value on an edge whose source row is outside the table. -/
def takeFill128 (ei : IVec SEI 32) (f : FVec Ideal S100000x128 .f32) : FVec Ideal S1600000x128 .f32 :=
  select (broadcastInDim S1600000x128 ![0] bcast_S1600000_S1600000x128_0 (inTable (srcCol ei)))
    (Host.gather gather_S100000x128_S1600000x1_S1600000x128_1_0_n_n_0_1_1128 f (srcCol ei))
    (broadcastInDim S1600000x128 ![] bcast_S_S1600000x128 (constant (F := Ideal) S_ .f32 0x7FC00000#32))

/-- Those rows added onto their destination rows, from zero. -/
def aggK128 (ei : IVec SEI 32) (f : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim SE1 ![0] bcast_E_E1 (edgeRow1 ei)) (takeFill128 ei f)

/-- The same read of a 64-wide table. -/
def takeFill64 (ei : IVec SEI 32) (f : FVec Ideal S100000x64 .f32) : FVec Ideal S1600000x64 .f32 :=
  select (broadcastInDim S1600000x64 ![0] bcast_S1600000_S1600000x64_0 (inTable (srcCol ei)))
    (Host.gather gather_S100000x64_S1600000x1_S1600000x64_1_0_n_n_0_1_164 f (srcCol ei))
    (broadcastInDim S1600000x64 ![] bcast_S_S1600000x64 (constant (F := Ideal) S_ .f32 0x7FC00000#32))

/-- The same aggregation, 64 wide. -/
def aggK64 (ei : IVec SEI 32) (f : FVec Ideal S100000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim SE1 ![0] bcast_E_E1 (edgeRow1 ei)) (takeFill64 ei f)

/-- With every source row inside the table the fill never happens and the aggregation is the segment sum. -/
theorem aggK128_eq (ei : IVec SEI 32) (f : Arr 100000 128)
    (hsrc : ∀ t : Fin 1600000, 0 ≤ (ei (ix2 (0 : Fin 2) t)).toInt ∧ (ei (ix2 (0 : Fin 2) t)).toInt < 100000) :
    aggK128 ei f = segsum (srcRow ei) (dstRow ei) f := by
  unfold aggK128 takeFill128
  rw [Cert.PreFacts.select_rows_of_all _ _ (Cert.PreFacts.inTable_srcCol ei hsrc)]
  funext i
  obtain ⟨p, j, rfl⟩ : ∃ (p : Fin 100000) (j : Fin 128), i = ix2 p j := ⟨i 0, i 1, eq_ix2 i⟩
  rw [segsum_apply, Cert.LibRowTake.scatterAdd_rows_apply _ rfl rfl rfl rfl]
  have hz : broadcastInDim S100000x128 ![] bcast_S_S100000x128 (constant (F := Ideal) S_ .f32 0x00000000#32) (ix2 p j) = 0 :=
    Ideal.ofBits_zero_f32
  rw [hz, zero_add]
  refine Finset.sum_congr rfl fun t _ => ?_
  rw [Cert.LibRowTake.gather_rows_apply _ rfl rfl rfl rfl rfl (by decide)]
  rfl

theorem aggK64_eq (ei : IVec SEI 32) (f : Arr 100000 64)
    (hsrc : ∀ t : Fin 1600000, 0 ≤ (ei (ix2 (0 : Fin 2) t)).toInt ∧ (ei (ix2 (0 : Fin 2) t)).toInt < 100000) :
    aggK64 ei f = segsum (srcRow ei) (dstRow ei) f := by
  unfold aggK64 takeFill64
  rw [Cert.PreFacts.select_rows_of_all _ _ (Cert.PreFacts.inTable_srcCol ei hsrc)]
  funext i
  obtain ⟨p, j, rfl⟩ : ∃ (p : Fin 100000) (j : Fin 64), i = ix2 p j := ⟨i 0, i 1, eq_ix2 i⟩
  rw [segsum_apply, Cert.LibRowTake.scatterAdd_rows_apply _ rfl rfl rfl rfl]
  have hz : broadcastInDim S100000x64 ![] bcast_S_S100000x64 (constant (F := Ideal) S_ .f32 0x00000000#32) (ix2 p j) = 0 :=
    Ideal.ofBits_zero_f32
  rw [hz, zero_add]
  refine Finset.sum_congr rfl fun t _ => ?_
  rw [Cert.LibRowTake.gather_rows_apply _ rfl rfl rfl rfl rfl (by decide)]
  rfl

/-- A bias row reshaped to one row and read back as a row is the bias. -/
theorem rowOf_shapeCast {a : ℕ} (b : Row a) (hc : (⟨1, ![a]⟩ : Shape).ShapeCasts ⟨2, ![1, a]⟩) :
    rowOf (shapeCast ⟨2, ![1, a]⟩ b hc) = b := by
  funext q
  obtain ⟨j, rfl⟩ : ∃ j : Fin a, q = ix1 j := ⟨q 0, eq_ix1 q⟩
  rw [rowOf_apply]
  exact shapeCast_a_1a_apply b hc 0 j

/-! ## One host stretch at a time, from any contents -/

section Stages
variable (Wv : Valuation τ sig (Elt Ideal))

/-- Transports along an equation between a buffer's type and itself do nothing (read here on variables, where it is cheap). -/
theorem take128_casts (a : IVec SE 1) (g n : FVec Ideal S1600000x128 .f32) :
    (TRef.of main_v6 : TRef sig ⟨S1600000x128, .f32⟩).toBuf (Val := Elt Ideal)
      (select ((TRef.of main_call0_v14 : TRef sig ⟨S1600000x128, .i1⟩).ofBuf (Val := Elt Ideal)
          ((TRef.of main_call0_v14 : TRef sig ⟨S1600000x128, .i1⟩).toBuf (Val := Elt Ideal)
            (broadcastInDim S1600000x128 ![0] bcast_S1600000_S1600000x128_0
              ((TRef.of main_call0_v12 : TRef sig ⟨S1600000, .i1⟩).ofBuf (Val := Elt Ideal) a))))
        ((TRef.of main_call0_v13 : TRef sig ⟨S1600000x128, .f32⟩).ofBuf (Val := Elt Ideal) g)
        ((TRef.of main_call0_v15 : TRef sig ⟨S1600000x128, .f32⟩).ofBuf (Val := Elt Ideal) n))
    = select (broadcastInDim S1600000x128 ![0] bcast_S1600000_S1600000x128_0 a) g n := rfl

set_option maxHeartbeats 1500000 in
theorem s0_v12 : (StableHlo.after hostOps0_1 Wv (Proc.devRef .tc main_call0_v12) : IVec SE 1) = inTable (broadcastInDim SE1 ![0] bcast_E_E1 (wrap (Wv (Proc.devRef .tc main_v1)))) := by
  after_results
  simp only [TRef.ofBuf, TRef.toBuf, cast_cast, cast_eq]
  rfl

set_option maxHeartbeats 1500000 in
theorem s0_v13 : (StableHlo.after hostOps0_1 Wv (Proc.devRef .tc main_call0_v13) : FVec Ideal S1600000x128 .f32)
    = Host.gather gather_S100000x128_S1600000x1_S1600000x128_1_0_n_n_0_1_1128 (Wv (Proc.devRef .tc main_arg0)) (broadcastInDim SE1 ![0] bcast_E_E1 (wrap (Wv (Proc.devRef .tc main_v1)))) := by
  after_results
  rfl

set_option maxHeartbeats 1500000 in
theorem s0_v15 : (StableHlo.after hostOps0_1 Wv (Proc.devRef .tc main_call0_v15) : FVec Ideal S1600000x128 .f32)
    = broadcastInDim S1600000x128 ![] bcast_S_S1600000x128 (constant (F := Ideal) S_ .f32 0x7FC00000#32) := by
  after_results
  rfl

set_option maxHeartbeats 1500000 in
theorem s0_v6 : (StableHlo.after hostOps0_1 Wv (Proc.devRef .tc main_v6) : FVec Ideal S1600000x128 .f32)
    = select (broadcastInDim S1600000x128 ![0] bcast_S1600000_S1600000x128_0 (inTable (broadcastInDim SE1 ![0] bcast_E_E1 (wrap (Wv (Proc.devRef .tc main_v1))))))
        (Host.gather gather_S100000x128_S1600000x1_S1600000x128_1_0_n_n_0_1_1128 (Wv (Proc.devRef .tc main_arg0)) (broadcastInDim SE1 ![0] bcast_E_E1 (wrap (Wv (Proc.devRef .tc main_v1)))))
        (broadcastInDim S1600000x128 ![] bcast_S_S1600000x128 (constant (F := Ideal) S_ .f32 0x7FC00000#32)) := by
  have h12 := s0_v12 Wv
  have h13 := s0_v13 Wv
  have h15 := s0_v15 Wv
  simp only [after_cons, after_nil] at h12 h13 h15 ⊢
  rw [ternary_result_ne (h := show main_call0_v12 ≠ main_v6 by decide),
    unary_result_ne (h := show main_call0_v12 ≠ main_call0_v15 by decide),
    nullary_result_ne (h := show main_call0_v12 ≠ main_call0_cst by decide),
    unary_result_ne (h := show main_call0_v12 ≠ main_call0_v14 by decide)] at h12
  rw [ternary_result_ne (h := show main_call0_v13 ≠ main_v6 by decide)] at h13
  rw [ternary_result_ne (h := show main_call0_v15 ≠ main_v6 by decide)] at h15
  rw [ternary_result, h13, h15,
    unary_result_ne (h := show main_call0_v14 ≠ main_call0_v15 by decide),
    nullary_result_ne (h := show main_call0_v14 ≠ main_call0_cst by decide),
    unary_result, h12]
  exact take128_casts _ _ _

/-- Transports along an equation between a buffer's type and itself do nothing (read here on variables, where it is cheap). -/
theorem take64_casts (a : IVec SE 1) (g n : FVec Ideal S1600000x64 .f32) :
    (TRef.of main_v11 : TRef sig ⟨S1600000x64, .f32⟩).toBuf (Val := Elt Ideal)
      (select ((TRef.of main_call1_v14 : TRef sig ⟨S1600000x64, .i1⟩).ofBuf (Val := Elt Ideal)
          ((TRef.of main_call1_v14 : TRef sig ⟨S1600000x64, .i1⟩).toBuf (Val := Elt Ideal)
            (broadcastInDim S1600000x64 ![0] bcast_S1600000_S1600000x64_0
              ((TRef.of main_call1_v12 : TRef sig ⟨S1600000, .i1⟩).ofBuf (Val := Elt Ideal) a))))
        ((TRef.of main_call1_v13 : TRef sig ⟨S1600000x64, .f32⟩).ofBuf (Val := Elt Ideal) g)
        ((TRef.of main_call1_v15 : TRef sig ⟨S1600000x64, .f32⟩).ofBuf (Val := Elt Ideal) n))
    = select (broadcastInDim S1600000x64 ![0] bcast_S1600000_S1600000x64_0 a) g n := rfl

set_option maxHeartbeats 1500000 in
theorem s1_v12 : (StableHlo.after hostOps1 Wv (Proc.devRef .tc main_call1_v12) : IVec SE 1) = inTable (broadcastInDim SE1 ![0] bcast_E_E1 (wrap (Wv (Proc.devRef .tc main_v1)))) := by
  after_results
  simp only [TRef.ofBuf, TRef.toBuf, cast_cast, cast_eq]
  rfl

set_option maxHeartbeats 1500000 in
theorem s1_v13 : (StableHlo.after hostOps1 Wv (Proc.devRef .tc main_call1_v13) : FVec Ideal S1600000x64 .f32)
    = Host.gather gather_S100000x64_S1600000x1_S1600000x64_1_0_n_n_0_1_164 (Wv (Proc.devRef .tc main_v10_1)) (broadcastInDim SE1 ![0] bcast_E_E1 (wrap (Wv (Proc.devRef .tc main_v1)))) := by
  after_results
  rfl

set_option maxHeartbeats 1500000 in
theorem s1_v15 : (StableHlo.after hostOps1 Wv (Proc.devRef .tc main_call1_v15) : FVec Ideal S1600000x64 .f32)
    = broadcastInDim S1600000x64 ![] bcast_S_S1600000x64 (constant (F := Ideal) S_ .f32 0x7FC00000#32) := by
  after_results
  rfl

set_option maxHeartbeats 1500000 in
theorem s1_v11 : (StableHlo.after hostOps1 Wv (Proc.devRef .tc main_v11) : FVec Ideal S1600000x64 .f32)
    = select (broadcastInDim S1600000x64 ![0] bcast_S1600000_S1600000x64_0 (inTable (broadcastInDim SE1 ![0] bcast_E_E1 (wrap (Wv (Proc.devRef .tc main_v1))))))
        (Host.gather gather_S100000x64_S1600000x1_S1600000x64_1_0_n_n_0_1_164 (Wv (Proc.devRef .tc main_v10_1)) (broadcastInDim SE1 ![0] bcast_E_E1 (wrap (Wv (Proc.devRef .tc main_v1)))))
        (broadcastInDim S1600000x64 ![] bcast_S_S1600000x64 (constant (F := Ideal) S_ .f32 0x7FC00000#32)) := by
  have h12 := s1_v12 Wv
  have h13 := s1_v13 Wv
  have h15 := s1_v15 Wv
  simp only [after_cons, after_nil] at h12 h13 h15 ⊢
  rw [ternary_result_ne (h := show main_call1_v12 ≠ main_v11 by decide),
    unary_result_ne (h := show main_call1_v12 ≠ main_call1_v15 by decide),
    nullary_result_ne (h := show main_call1_v12 ≠ main_call1_cst by decide),
    unary_result_ne (h := show main_call1_v12 ≠ main_call1_v14 by decide)] at h12
  rw [ternary_result_ne (h := show main_call1_v13 ≠ main_v11 by decide)] at h13
  rw [ternary_result_ne (h := show main_call1_v15 ≠ main_v11 by decide)] at h15
  rw [ternary_result, h13, h15,
    unary_result_ne (h := show main_call1_v14 ≠ main_call1_v15 by decide),
    nullary_result_ne (h := show main_call1_v14 ≠ main_call1_cst by decide),
    unary_result, h12]
  exact take64_casts _ _ _

theorem s2_v9 : (StableHlo.after hostOps0_2 Wv (Proc.devRef .tc main_v9) : FVec Ideal S100000x128 .f32)
    = Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (Wv (Proc.devRef .tc main_v3)))
        (Wv (Proc.devRef .tc main_v6)) := by
  after_results

theorem s3_v14 : (StableHlo.after hostOps1_1 Wv (Proc.devRef .tc main_v14) : FVec Ideal S100000x64 .f32)
    = Host.scatterAdd scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 (Wv (Proc.devRef .tc main_v3)))
        (Wv (Proc.devRef .tc main_v11)) := by
  after_results

end Stages

variable (m : (ℓ : Loc nD τ sig) → Buf (Elt Ideal) ℓ) (ρ : Dev nD → PrngReg)

/-! ## What the buffers hold when the first pallas_call is entered -/

theorem W1_v1 (c : Dev nD) : (W1 m ρ c (Proc.devRef .tc main_v1) : IVec SE 32) = edgeRow0 (m ((c.tc : Thread nD τ).loc main_arg1)) := by
  show StableHlo.after hostOps0 (W0 m ρ c) (Proc.devRef .tc main_v1) = _
  after_results
  rfl

theorem W1_arg0 (c : Dev nD) : W1 m ρ c (Proc.devRef .tc main_arg0) = m ((c.tc : Thread nD τ).loc main_arg0) := by
  show StableHlo.after hostOps0 (W0 m ρ c) (Proc.devRef .tc main_arg0) = _
  after_results

theorem W2_v3 (c : Dev nD) : (W2 m ρ c (Proc.devRef .tc main_v3) : IVec SE 32) = edgeRow1 (m ((c.tc : Thread nD τ).loc main_arg1)) := by
  show StableHlo.after hostOps0_1 (StableHlo.after hostOps0 (W0 m ρ c)) (Proc.devRef .tc main_v3) = _
  after_results
  rfl

theorem W3_arg0 (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results
theorem W3_arg2 (c : Dev nD) : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results
theorem W3_arg4 (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results
theorem W3_arg5 (c : Dev nD) : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results
theorem W3_arg7 (c : Dev nD) : W3 m ρ c (Proc.devRef .tc main_arg7) = m ((c.tc : Thread nD τ).loc main_arg7) := by
  show StableHlo.after hostOps0_2 (StableHlo.after hostOps0_1 (StableHlo.after hostOps0 (W0 m ρ c))) (Proc.devRef .tc main_arg7) = _
  after_results
theorem W3_v1 (c : Dev nD) : (W3 m ρ c (Proc.devRef .tc main_v1) : IVec SE 32) = edgeRow0 (m ((c.tc : Thread nD τ).loc main_arg1)) := by
  show StableHlo.after hostOps0_2 (StableHlo.after hostOps0_1 (StableHlo.after hostOps0 (W0 m ρ c))) (Proc.devRef .tc main_v1) = _
  after_results
  rfl
theorem W3_v3 (c : Dev nD) : (W3 m ρ c (Proc.devRef .tc main_v3) : IVec SE 32) = edgeRow1 (m ((c.tc : Thread nD τ).loc main_arg1)) := by
  show StableHlo.after hostOps0_2 (StableHlo.after hostOps0_1 (StableHlo.after hostOps0 (W0 m ρ c))) (Proc.devRef .tc main_v3) = _
  after_results
  rfl
theorem W3_v4 (c : Dev nD) : (W3 m ρ c (Proc.devRef .tc main_v4) : FVec Ideal S1x128 .f32)
    = shapeCast S1x128 (m ((c.tc : Thread nD τ).loc main_arg3)) shapeCasts_S128_S1x128 := by
  show StableHlo.after hostOps0_2 (StableHlo.after hostOps0_1 (StableHlo.after hostOps0 (W0 m ρ c))) (Proc.devRef .tc main_v4) = _
  after_results
  rfl
theorem W3_v5 (c : Dev nD) : (W3 m ρ c (Proc.devRef .tc main_v5) : FVec Ideal S1x64 .f32)
    = shapeCast S1x64 (m ((c.tc : Thread nD τ).loc main_arg6)) shapeCasts_S64_S1x64 := by
  show StableHlo.after hostOps0_2 (StableHlo.after hostOps0_1 (StableHlo.after hostOps0 (W0 m ρ c))) (Proc.devRef .tc main_v5) = _
  after_results
  rfl

/-- The aggregate the first pallas_call reads. -/
theorem W3_v9 (c : Dev nD) : (W3 m ρ c (Proc.devRef .tc main_v9) : FVec Ideal S100000x128 .f32)
    = aggK128 (m ((c.tc : Thread nD τ).loc main_arg1)) (m ((c.tc : Thread nD τ).loc main_arg0)) := by
  have h6 : (W2 m ρ c (Proc.devRef .tc main_v6) : FVec Ideal S1600000x128 .f32)
      = takeFill128 (m ((c.tc : Thread nD τ).loc main_arg1)) (m ((c.tc : Thread nD τ).loc main_arg0)) := by
    show StableHlo.after hostOps0_1 (W1 m ρ c) (Proc.devRef .tc main_v6) = _
    rw [s0_v6, W1_v1, W1_arg0]
    rfl
  show StableHlo.after hostOps0_2 (W2 m ρ c) (Proc.devRef .tc main_v9) = _
  rw [s2_v9, W2_v3, h6]
  rfl

/-! ## What the buffers hold when the second pallas_call is entered -/

theorem W4_hidden (c : Dev nD) : W4 m ρ c (Proc.devRef .tc main_v10_0) = (dat0 (V3 m ρ) c).arrAt 6 cfg0.N := W4_arr m ρ c 6
theorem W4_proj (c : Dev nD) : W4 m ρ c (Proc.devRef .tc main_v10_1) = (dat0 (V3 m ρ) c).arrAt 7 cfg0.N := W4_arr m ρ c 7

theorem W4_v1 (c : Dev nD) : (W4 m ρ c (Proc.devRef .tc main_v1) : IVec SE 32) = edgeRow0 (m ((c.tc : Thread nD τ).loc main_arg1)) :=
  (W4_of_ne m ρ c main_v1 (by decide)).trans (W3_v1 m ρ c)
theorem W4_v3 (c : Dev nD) : (W4 m ρ c (Proc.devRef .tc main_v3) : IVec SE 32) = edgeRow1 (m ((c.tc : Thread nD τ).loc main_arg1)) :=
  (W4_of_ne m ρ c main_v3 (by decide)).trans (W3_v3 m ρ c)
theorem W4_arg7 (c : Dev nD) : W4 m ρ c (Proc.devRef .tc main_arg7) = m ((c.tc : Thread nD τ).loc main_arg7) :=
  (W4_of_ne m ρ c main_arg7 (by decide)).trans (W3_arg7 m ρ c)
theorem W4_v5 (c : Dev nD) : (W4 m ρ c (Proc.devRef .tc main_v5) : FVec Ideal S1x64 .f32)
    = shapeCast S1x64 (m ((c.tc : Thread nD τ).loc main_arg6)) shapeCasts_S64_S1x64 :=
  (W4_of_ne m ρ c main_v5 (by decide)).trans (W3_v5 m ρ c)

theorem W5_v3 (c : Dev nD) : W5 m ρ c (Proc.devRef .tc main_v3) = W4 m ρ c (Proc.devRef .tc main_v3) := by
  show StableHlo.after hostOps1 (W4 m ρ c) (Proc.devRef .tc main_v3) = _
  after_results

theorem W6_hidden (c : Dev nD) : W6 m ρ c (Proc.devRef .tc main_v10_0) = W4 m ρ c (Proc.devRef .tc main_v10_0) := by
  show StableHlo.after hostOps1_1 (StableHlo.after hostOps1 (W4 m ρ c)) (Proc.devRef .tc main_v10_0) = _
  after_results
theorem W6_arg7 (c : Dev nD) : W6 m ρ c (Proc.devRef .tc main_arg7) = W4 m ρ c (Proc.devRef .tc main_arg7) := by
  show StableHlo.after hostOps1_1 (StableHlo.after hostOps1 (W4 m ρ c)) (Proc.devRef .tc main_arg7) = _
  after_results
theorem W6_v5 (c : Dev nD) : W6 m ρ c (Proc.devRef .tc main_v5) = W4 m ρ c (Proc.devRef .tc main_v5) := by
  show StableHlo.after hostOps1_1 (StableHlo.after hostOps1 (W4 m ρ c)) (Proc.devRef .tc main_v5) = _
  after_results

/-- The aggregate the second pallas_call reads: the aggregation of the first call's second output. -/
theorem W6_v14 (c : Dev nD) : (W6 m ρ c (Proc.devRef .tc main_v14) : FVec Ideal S100000x64 .f32)
    = aggK64 (m ((c.tc : Thread nD τ).loc main_arg1)) (W4 m ρ c (Proc.devRef .tc main_v10_1)) := by
  have h11 : (W5 m ρ c (Proc.devRef .tc main_v11) : FVec Ideal S1600000x64 .f32)
      = takeFill64 (m ((c.tc : Thread nD τ).loc main_arg1)) (W4 m ρ c (Proc.devRef .tc main_v10_1)) := by
    show StableHlo.after hostOps1 (W4 m ρ c) (Proc.devRef .tc main_v11) = _
    rw [s1_v11, W4_v1]
    rfl
  show StableHlo.after hostOps1_1 (W5 m ρ c) (Proc.devRef .tc main_v14) = _
  rw [s3_v14, W5_v3, W4_v3, h11]
  rfl

end Cert.KernelIdeal.KerHost

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.KerRegion0.lean ====
/-
  The first pallas_call, from blocks to whole arrays: its grid point `t` holds rows `5000 t … 5000 t + 4999` of the
  two row-blocked inputs and the four weight arrays whole, and writes the same rows of its two outputs.  Row by row
  the first output is the clipped first layer (both products, then the bias) and the second output that row
  projected through the second layer's weights.
-/
import proofs.«407079_j30562987278567_2_alg».proof.Proof.Gen.KernelIdeal.Frame
import proofs.«407079_j30562987278567_2_alg».proof.Proof.Spec
import proofs.«407079_j30562987278567_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Cert.KernelIdeal Cert.KernelIdeal.Gen Cert.GraphConv
open scoped BigOperators

variable (V : (c : Dev nD) → (b : Ref sig .tc) → Buf (Elt Ideal) ((c : Thread nD τ).loc b))

/-! ## The body's two results at an index of the block -/

/-- Entry `(p, j)` of the first result: both products of row `p`, then the bias, clipped below at zero. -/
theorem hiddenBlk_apply (x0 x1 : Vec Ideal S5000x128 .f32) (w0 w1 : Vec Ideal S128x128 .f32) (b : Vec Ideal S1x128 .f32)
    (p : Fin 5000) (j : Fin 128) :
    k0_pay1 (F := Ideal) x0 x1 w0 w1 b (ix2 p j)
      = max ((∑ k : Fin 128, x0 (ix2 p k) * w0 (ix2 k j)) + (∑ k : Fin 128, x1 (ix2 p k) * w1 (ix2 k j))
          + b (ix2 (0 : Fin 1) j)) 0 := by
  unfold k0_pay1
  rw [maximumf_apply, addf_apply, addf_apply, broadcast_apply]
  rw [Cert.LibRowOps.matmul_plain_apply dot_S5000x128_S128x128_S5000x128_1_0_0_1_n_n rfl,
    Cert.LibRowOps.matmul_plain_apply dot_S5000x128_S128x128_S5000x128_1_0_0_1_n_n rfl,
    broadcastTo_1b_ab_apply, shapeCast_self, shapeCast_self]
  show max _ (Ideal.ofBits .f32 0x00000000#32) = _
  rw [Ideal.ofBits_zero_f32]
  rfl

/-- Entry `(p, j)` of the second result: row `p` of the first result times column `j` of the last weights. -/
theorem projBlk_apply (x0 x1 : Vec Ideal S5000x128 .f32) (w0 w1 : Vec Ideal S128x128 .f32) (b : Vec Ideal S1x128 .f32)
    (w2 : Vec Ideal S128x64 .f32) (p : Fin 5000) (j : Fin 64) :
    k0_pay2 (F := Ideal) x0 x1 w0 w1 b w2 (ix2 p j)
      = ∑ q : Fin 128, k0_pay1 (F := Ideal) x0 x1 w0 w1 b (ix2 p q) * w2 (ix2 q j) := by
  unfold k0_pay2
  rw [Cert.LibRowOps.matmul_plain_apply dot_S5000x128_S128x64_S5000x64_1_0_0_1_n_n rfl]
  rfl

/-! ## The six window arrays as the region finds them, and their blocks -/

abbrev arrA (c : Dev nD) : Arr 100000 128 := V c (Pipeline.arrRef spec0 0)
abbrev arrX (c : Dev nD) : Arr 100000 128 := V c (Pipeline.arrRef spec0 1)
abbrev arrW1r (c : Dev nD) : Arr 128 128 := V c (Pipeline.arrRef spec0 2)
abbrev arrB1 (c : Dev nD) : Arr 1 128 := V c (Pipeline.arrRef spec0 3)
abbrev arrW1o (c : Dev nD) : Arr 128 128 := V c (Pipeline.arrRef spec0 4)
abbrev arrW2r (c : Dev nD) : Arr 128 64 := V c (Pipeline.arrRef spec0 5)

theorem zeroOff : (![0, 0] : Fin 2 → Nat) = fun _ => 0 := funext fun a => by fin_cases a <;> rfl

/-- The index maps, decided over the grid: the row-blocked windows sit at block `(t, 0)`, the weight windows at `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of window 0's block at point `t` is row `5000 t + p` of its array. -/
theorem blkA_apply (c : Dev nD) (t : Fin cfg0.N) (p : Fin 5000) (k : Fin 128) (r : Fin 100000)
    (hr : r.val = t.val * 5000 + p.val) :
    (iblk0 V c 0 t : Vec Ideal S5000x128 .f32) (ix2 p k) = arrA V c (ix2 r k) := by
  obtain ⟨e0, e1, -⟩ := index_facts t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Row `p` of window 1's block at point `t` is row `5000 t + p` of its array. -/
theorem blkX_apply (c : Dev nD) (t : Fin cfg0.N) (p : Fin 5000) (k : Fin 128) (r : Fin 100000)
    (hr : r.val = t.val * 5000 + p.val) :
    (iblk0 V c 1 t : Vec Ideal S5000x128 .f32) (ix2 p k) = arrX V c (ix2 r k) := by
  obtain ⟨-, -, e0, e1, -⟩ := index_facts t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- Window 2's block at every point is its whole array. -/
theorem blkW1r_eq (c : Dev nD) (t : Fin cfg0.N) : (iblk0 V c 2 t : Vec Ideal S128x128 .f32) = arrW1r V c := by
  obtain ⟨-, -, -, -, e0, e1, -⟩ := index_facts t
  funext y
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- Window 3's block at every point is its whole array. -/
theorem blkB1_eq (c : Dev nD) (t : Fin cfg0.N) : (iblk0 V c 3 t : Vec Ideal S1x128 .f32) = arrB1 V c := by
  obtain ⟨-, -, -, -, -, -, e0, e1, -⟩ := index_facts t
  funext y
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- Window 4's block at every point is its whole array. -/
theorem blkW1o_eq (c : Dev nD) (t : Fin cfg0.N) : (iblk0 V c 4 t : Vec Ideal S128x128 .f32) = arrW1o V c := by
  obtain ⟨-, -, -, -, -, -, -, -, e0, e1, -⟩ := index_facts t
  funext y
  unfold iblk0
  rw [View.read_apply]
  show V c (Pipeline.arrRef spec0 4) _ = V c (Pipeline.arrRef spec0 4) _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- Window 5's block at every point is its whole array. -/
theorem blkW2r_eq (c : Dev nD) (t : Fin cfg0.N) : (iblk0 V c 5 t : Vec Ideal S128x64 .f32) = arrW2r V c := by
  obtain ⟨-, -, -, -, -, -, -, -, -, -, e0, e1, -⟩ := index_facts t
  funext y
  unfold iblk0
  rw [View.read_apply]
  show V c (Pipeline.arrRef spec0 5) _ = V c (Pipeline.arrRef spec0 5) _
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 64 + 1 * (y 1).val = (y 1).val; rw [e1]; omega

/-! ## The first output: what a point writes back, the cover, the array -/

/-- The clipped first layer of the six window arrays. -/
abbrev hiddenArr (c : Dev nD) : Arr 100000 128 :=
  hiddenKer (arrA V c) (arrX V c) (arrW1r V c) (rowOf (arrB1 V c)) (arrW1o V c)

/-- The first result of the blocks at point `t`, at `(p, j)`, is the clipped first layer at row `5000 t + p`. -/
theorem hiddenBlk_eq (c : Dev nD) (t : Fin cfg0.N) (p : Fin 5000) (j : Fin 128) (r : Fin 100000)
    (hr : r.val = t.val * 5000 + p.val) :
    k0_pay1 (F := Ideal) (iblk0 V c 0 t) (iblk0 V c 1 t) (iblk0 V c 2 t) (iblk0 V c 4 t) (iblk0 V c 3 t) (ix2 p j)
      = hiddenArr V c (ix2 r j) := by
  refine (hiddenBlk_apply (iblk0 V c 0 t) (iblk0 V c 1 t) (iblk0 V c 2 t) (iblk0 V c 4 t) (iblk0 V c 3 t) p j).trans ?_
  rw [blkW1r_eq V c t, blkW1o_eq V c t, blkB1_eq V c t]
  show _ = max (mm (arrA V c) (arrW1r V c) (ix2 r j) + mm (arrX V c) (arrW1o V c) (ix2 r j) + rowOf (arrB1 V c) (ix1 j)) 0
  rw [mm_apply, mm_apply, rowOf_apply]
  congr 3
  · exact Finset.sum_congr rfl fun k _ => by rw [blkA_apply V c t p k r hr]
  · exact Finset.sum_congr rfl fun k _ => by rw [blkX_apply V c t p k r hr]

/-- What point `t` writes back to the first output's array is block `t` of the clipped first layer. -/
theorem flushed_hidden (c : Dev nD) (t : Fin cfg0.N) :
    (dat0 (F := Ideal) V c).flushed 6 t = ((cfg0.win 6).blk t).view.read (Elt Ideal) (hiddenArr V c) := by
  show (cfg0.win 6).cut (grid0.coords t) ((dat0 (F := Ideal) V c).after 6 t) = _
  rw [after0_6]
  unfold out0_6
  rw [View.canon_unit_zero zeroOff]
  simp only [View.ld_unit_zero (S := S5000x128) zeroOff, View.ld_unit_zero (S := S128x128) zeroOff,
    View.ld_unit_zero (S := S1x128) zeroOff]
  obtain ⟨-, -, -, -, -, -, -, -, -, -, -, -, e0, e1, -⟩ := index_facts t
  funext y
  obtain ⟨p, j, rfl⟩ : ∃ (p : Fin 5000) (j : Fin 128), y = ix2 p j := ⟨y 0, y 1, eq_ix2 y⟩
  have hN : grid0.N = 20 := N_0
  have ht : t.val < 20 := hN ▸ t.isLt
  refine (hiddenBlk_eq V c t p j ⟨t.val * 5000 + p.val, by omega⟩ rfl).trans ?_
  show hiddenArr V c _ = hiddenArr V c (((cfg0.win 6).blk t).view.emb (ix2 p j))
  congr 1
  funext a
  apply Fin.ext
  match a with
  | ⟨0, _⟩ => show t.val * 5000 + p.val = win0_6.index t (0 : Fin 2) * 5000 + 1 * p.val; rw [e0]; omega
  | ⟨1, _⟩ => show j.val = win0_6.index t (1 : Fin 2) * 128 + 1 * j.val; rw [e1]; omega

/-- An index of the first output's array is in point `t`'s block iff each coordinate is in the block's range. -/
theorem mem_blk_hidden (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v10_0).slice (win0_6.rect t)).set ↔ _
  rw [View.set_slice_whole, Rect.mem_set_unit]
  exact Iff.rfl

/-- Row `r` of the first output's array is written by point `r / 5000`. -/
theorem cover_hidden (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : grid0.N = 20 := N_0
  have hq : (i 0).val / 5000 < grid0.N := by rw [hN]; omega
  obtain ⟨-, -, -, -, -, -, -, -, -, -, -, -, e0, e1, -⟩ := index_facts ⟨(i 0).val / 5000, hq⟩
  refine ⟨⟨(i 0).val / 5000, hq⟩, flush0_6 _, ?_⟩
  rw [mem_blk_hidden]
  intro a
  match a with
  | ⟨0, _⟩ =>
    show win0_6.index ⟨(i 0).val / 5000, hq⟩ (0 : Fin 2) * 5000 ≤ (i 0).val
      ∧ (i 0).val < win0_6.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hq⟩ (1 : Fin 2) * 128 ≤ (i 1).val
      ∧ (i 1).val < win0_6.index ⟨(i 0).val / 5000, hq⟩ (1 : Fin 2) * 128 + 128
    rw [e1]; omega

/-- The first output array after the region: the clipped first layer of the six window arrays as the region found them. -/
theorem arr_hidden (c : Dev nD) :
    ((dat0 (F := Ideal) V c).arrAt 6 cfg0.N : Arr 100000 128)
      = hiddenKer (V c (Pipeline.arrRef spec0 0)) (V c (Pipeline.arrRef spec0 1)) (V c (Pipeline.arrRef spec0 2))
          (rowOf (V c (Pipeline.arrRef spec0 3))) (V c (Pipeline.arrRef spec0 4)) :=
  (dat0 (F := Ideal) V c).arrAt_eq_of_cover 6 (hiddenArr V c) (fun t _ => flushed_hidden V c t) cover_hidden

/-! ## The second output: what a point writes back, the cover, the array -/

/-- The first output projected through window 5's weights. -/
abbrev projArr (c : Dev nD) : Arr 100000 64 := mm (hiddenArr V c) (arrW2r V c)

/-- The second result of the blocks at point `t`, at `(p, j)`, is the projection at row `5000 t + p`. -/
theorem projBlk_eq (c : Dev nD) (t : Fin cfg0.N) (p : Fin 5000) (j : Fin 64) (r : Fin 100000)
    (hr : r.val = t.val * 5000 + p.val) :
    k0_pay2 (F := Ideal) (iblk0 V c 0 t) (iblk0 V c 1 t) (iblk0 V c 2 t) (iblk0 V c 4 t) (iblk0 V c 3 t) (iblk0 V c 5 t) (ix2 p j)
      = projArr V c (ix2 r j) := by
  refine (projBlk_apply (iblk0 V c 0 t) (iblk0 V c 1 t) (iblk0 V c 2 t) (iblk0 V c 4 t) (iblk0 V c 3 t) (iblk0 V c 5 t) p j).trans ?_
  rw [blkW2r_eq V c t]
  show _ = mm (hiddenArr V c) (arrW2r V c) (ix2 r j)
  rw [mm_apply]
  exact Finset.sum_congr rfl fun q _ => by rw [hiddenBlk_eq V c t p q r hr]

/-- What point `t` writes back to the second output's array is block `t` of the projection. -/
theorem flushed_proj (c : Dev nD) (t : Fin cfg0.N) :
    (dat0 (F := Ideal) V c).flushed 7 t = ((cfg0.win 7).blk t).view.read (Elt Ideal) (projArr V c) := by
  show (cfg0.win 7).cut (grid0.coords t) ((dat0 (F := Ideal) V c).after 7 t) = _
  rw [after0_7]
  unfold out0_7
  rw [View.canon_unit_zero zeroOff]
  simp only [View.ld_unit_zero (S := S5000x128) zeroOff, View.ld_unit_zero (S := S128x128) zeroOff,
    View.ld_unit_zero (S := S1x128) zeroOff, View.ld_unit_zero (S := S128x64) zeroOff]
  obtain ⟨-, -, -, -, -, -, -, -, -, -, -, -, -, -, e0, e1⟩ := index_facts t
  funext y
  obtain ⟨p, j, rfl⟩ : ∃ (p : Fin 5000) (j : Fin 64), y = ix2 p j := ⟨y 0, y 1, eq_ix2 y⟩
  have hN : grid0.N = 20 := N_0
  have ht : t.val < 20 := hN ▸ t.isLt
  refine (projBlk_eq V c t p j ⟨t.val * 5000 + p.val, by omega⟩ rfl).trans ?_
  show projArr V c _ = projArr V c (((cfg0.win 7).blk t).view.emb (ix2 p j))
  congr 1
  funext a
  apply Fin.ext
  match a with
  | ⟨0, _⟩ => show t.val * 5000 + p.val = win0_7.index t (0 : Fin 2) * 5000 + 1 * p.val; rw [e0]; omega
  | ⟨1, _⟩ => show j.val = win0_7.index t (1 : Fin 2) * 64 + 1 * j.val; rw [e1]; omega

/-- An index of the second output's array is in point `t`'s block iff each coordinate is in the block's range. -/
theorem mem_blk_proj (t : Fin cfg0.N) (i : S100000x64.Idx) :
    i ∈ ((cfg0.win 7).blk t).view.set ↔ ∀ a : Fin 2, win0_7.index t a * S5000x64.size a ≤ (i a).val
      ∧ (i a).val < win0_7.index t a * S5000x64.size a + S5000x64.size a := by
  show i ∈ ((View.whole main_v10_1).slice (win0_7.rect t)).set ↔ _
  rw [View.set_slice_whole, Rect.mem_set_unit]
  exact Iff.rfl

/-- Row `r` of the second output's array is written by point `r / 5000`. -/
theorem cover_proj (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have hN : grid0.N = 20 := N_0
  have hq : (i 0).val / 5000 < grid0.N := by rw [hN]; omega
  obtain ⟨-, -, -, -, -, -, -, -, -, -, -, -, -, -, e0, e1⟩ := index_facts ⟨(i 0).val / 5000, hq⟩
  refine ⟨⟨(i 0).val / 5000, hq⟩, flush0_7 _, ?_⟩
  rw [mem_blk_proj]
  intro a
  match a with
  | ⟨0, _⟩ =>
    show win0_7.index ⟨(i 0).val / 5000, hq⟩ (0 : Fin 2) * 5000 ≤ (i 0).val
      ∧ (i 0).val < win0_7.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, hq⟩ (1 : Fin 2) * 64 ≤ (i 1).val
      ∧ (i 1).val < win0_7.index ⟨(i 0).val / 5000, hq⟩ (1 : Fin 2) * 64 + 64
    rw [e1]; omega

/-- The second output array after the region: the first output projected through window 5's weights. -/
theorem arr_proj (c : Dev nD) :
    ((dat0 (F := Ideal) V c).arrAt 7 cfg0.N : Arr 100000 64)
      = mm (hiddenKer (V c (Pipeline.arrRef spec0 0)) (V c (Pipeline.arrRef spec0 1)) (V c (Pipeline.arrRef spec0 2))
          (rowOf (V c (Pipeline.arrRef spec0 3))) (V c (Pipeline.arrRef spec0 4))) (V c (Pipeline.arrRef spec0 5)) :=
  (dat0 (F := Ideal) V c).arrAt_eq_of_cover 7 (projArr V c) (fun t _ => flushed_proj V c t) cover_proj

end Cert.KernelIdeal.Region0

end
-- ==== Proof.KerRegion1.lean ====
/-
  The second pallas_call, from blocks to the whole array: grid point `t` holds rows `5000 t … 5000 t + 4999` of the
  projected aggregate and of the hidden rows, the root weights and the bias row whole, and writes the same rows of
  the result: aggregate plus bias plus hidden row times root weights.
-/
import proofs.«407079_j30562987278567_2_alg».proof.Proof.Gen.KernelIdeal.Frame
import proofs.«407079_j30562987278567_2_alg».proof.Proof.Spec
import proofs.«407079_j30562987278567_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Cert.KernelIdeal Cert.KernelIdeal.Gen Cert.GraphConv
open scoped BigOperators

variable (V : (c : Dev nD) → (b : Ref sig .tc) → Buf (Elt Ideal) ((c : Thread nD τ).loc b))

/-! ## The payload at an index -/

/-- The body's result at row p, column j of its block: the aggregate block plus the bias row plus the hidden
    block's row p times column j of the root weights (rounding to a narrower format is the identity here, and the
    product into a zero accumulator is the plain sum). -/
theorem payload_apply (x1 : Vec Ideal S5000x128 .f32) (x2 : Vec Ideal S128x64 .f32) (x0 : Vec Ideal S5000x64 .f32)
    (x3 : Vec Ideal S1x64 .f32) (p : Fin 5000) (j : Fin 64) :
    k1_pay1 x1 x2 x0 x3 (ix2 p j) = x0 (ix2 p j) + x3 (ix2 (0 : Fin 1) j) + ∑ k : Fin 128, x1 (ix2 p k) * x2 (ix2 k j) := by
  unfold k1_pay1
  rw [addf_apply, addf_apply, shapeCast_self, shapeCast_self, shapeCast_self, broadcastTo_1b_ab_apply,
    Cert.LibRowOps.matmul_plain_apply dot_S5000x128_S128x64_S5000x64_1_0_0_1_n_n rfl]
  rfl

/-! ## The four window arrays, and their blocks read at an index -/

/-- The projected aggregate, the hidden rows, the root weights and the bias row as the region finds them. -/
abbrev aggArr (c : Dev nD) : Arr 100000 64 := V c (Pipeline.arrRef spec1 0)
abbrev hidArr (c : Dev nD) : Arr 100000 128 := V c (Pipeline.arrRef spec1 1)
abbrev rootW (c : Dev nD) : Arr 128 64 := V c (Pipeline.arrRef spec1 2)
abbrev biasArr (c : Dev nD) : Arr 1 64 := V c (Pipeline.arrRef spec1 3)

/-- The whole-array function the output's blocks are restrictions of. -/
abbrev secondLayer (c : Dev nD) : Arr 100000 64 := layer2 (aggArr V c) (hidArr V c) (rowOf (biasArr V c)) (rootW V c)

theorem zero_off : (![0, 0] : Fin 2 → Nat) = fun _ => 0 := funext fun a => by fin_cases a <;> rfl

/-- The printed index maps, decided over the twenty grid points: the row-blocked windows sit at block row t,
    block column 0; the whole-array windows at block (0, 0). -/
theorem index_maps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point t holds rows 5000 t … 5000 t + 4999 of the aggregate. -/
theorem agg_block (c : Dev nD) (t : Fin cfg1.N) (y : S5000x64.Idx) (i : S100000x64.Idx)
    (h0 : (i 0).val = t.val * 5000 + (y 0).val) (h1 : (i 1).val = (y 1).val) :
    (iblk1 V c 0 t : Vec Ideal S5000x64 .f32) y = aggArr V c i := by
  obtain ⟨e0, e1, -⟩ := index_maps t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 64 + 1 * (y 1).val = (i 1).val; rw [e1, h1]; omega

/-- Window 1's block at point t holds rows 5000 t … 5000 t + 4999 of the hidden rows. -/
theorem hid_block (c : Dev nD) (t : Fin cfg1.N) (y : S5000x128.Idx) (i : S100000x128.Idx)
    (h0 : (i 0).val = t.val * 5000 + (y 0).val) (h1 : (i 1).val = (y 1).val) :
    (iblk1 V c 1 t : Vec Ideal S5000x128 .f32) y = hidArr V c i := by
  obtain ⟨-, -, e0, e1, -⟩ := index_maps t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 5000 + 1 * (y 0).val = (i 0).val; rw [e0, h0]; omega
  | ⟨1, _⟩ => show win1_1.index t (1 : Fin 2) * 128 + 1 * (y 1).val = (i 1).val; rw [e1, h1]; omega

/-- Window 2's block at every point is the root weights whole. -/
theorem rootW_block (c : Dev nD) (t : Fin cfg1.N) (y : S128x64.Idx) (i : S128x64.Idx)
    (h0 : (i 0).val = (y 0).val) (h1 : (i 1).val = (y 1).val) :
    (iblk1 V c 2 t : Vec Ideal S128x64 .f32) y = rootW V c i := by
  obtain ⟨-, -, -, -, e0, e1, -⟩ := index_maps t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 128 + 1 * (y 0).val = (i 0).val; rw [e0, h0]; omega
  | ⟨1, _⟩ => show win1_2.index t (1 : Fin 2) * 64 + 1 * (y 1).val = (i 1).val; rw [e1, h1]; omega

/-- Window 3's block at every point is the bias row whole. -/
theorem bias_block (c : Dev nD) (t : Fin cfg1.N) (y : S1x64.Idx) (i : S1x64.Idx)
    (h0 : (i 0).val = (y 0).val) (h1 : (i 1).val = (y 1).val) :
    (iblk1 V c 3 t : Vec Ideal S1x64 .f32) y = biasArr V c i := by
  obtain ⟨-, -, -, -, -, -, e0, e1, -⟩ := index_maps t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * (y 0).val = (i 0).val; rw [e0, h0]; omega
  | ⟨1, _⟩ => show win1_3.index t (1 : Fin 2) * 64 + 1 * (y 1).val = (i 1).val; rw [e1, h1]; omega

/-! ## What a grid point writes back -/

/-- The body's result of the four blocks at point t, at row p and column j of the block, is the second layer
    at row 5000 t + p and column j of the arrays. -/
theorem payload_blocks (c : Dev nD) (t : Fin cfg1.N) (p : Fin 5000) (j : Fin 64) (i : S100000x64.Idx)
    (h0 : (i 0).val = t.val * 5000 + p.val) (h1 : (i 1).val = j.val) :
    k1_pay1 (iblk1 V c 1 t) (iblk1 V c 2 t) (iblk1 V c 0 t) (iblk1 V c 3 t) (ix2 p j) = secondLayer V c i := by
  rw [payload_apply]
  show _ = aggArr V c i + rowOf (biasArr V c) (ix1 (c1 i)) + ∑ q : Fin 128, hidArr V c (ix2 (c0 i) q) * rootW V c (ix2 q (c1 i))
  rw [rowOf_apply, agg_block V c t (ix2 p j) i h0 h1, bias_block V c t (ix2 (0 : Fin 1) j) (ix2 (0 : Fin 1) (c1 i)) rfl h1]
  refine congrArg (aggArr V c i + biasArr V c (ix2 (0 : Fin 1) (c1 i)) + ·) (Finset.sum_congr rfl fun q _ => ?_)
  rw [hid_block V c t (ix2 p q) (ix2 (c0 i) q) h0 rfl, rootW_block V c t (ix2 q j) (ix2 q (c1 i)) rfl h1]

/-- What point t writes back is block t of the second layer of the four arrays. -/
theorem written_back (c : Dev nD) (t : Fin cfg1.N) :
    (dat1 (F := Ideal) V c).flushed 4 t = ((cfg1.win 4).blk t).view.read (Elt Ideal) (secondLayer V c) := by
  show (cfg1.win 4).cut (grid1.coords t) ((dat1 V c).after 4 t) = _
  rw [after1_4]
  unfold out1_4
  rw [View.canon_unit_zero zero_off]
  simp only [View.ld_unit_zero (S := S5000x128) zero_off, View.ld_unit_zero (S := S128x64) zero_off,
    View.ld_unit_zero (S := S5000x64) zero_off, View.ld_unit_zero (S := S1x64) zero_off]
  obtain ⟨-, -, -, -, -, -, -, -, e0, e1⟩ := index_maps t
  funext y
  have hy0 : (y 0).val < 5000 := (y 0).isLt
  have hy1 : (y 1).val < 64 := (y 1).isLt
  have hy : (cfg1.win 4).xinj (grid1.coords t) y = ix2 (⟨(y 0).val, hy0⟩ : Fin 5000) (⟨(y 1).val, hy1⟩ : Fin 64) :=
    funext fun a => by match a with | ⟨0, _⟩ => rfl | ⟨1, _⟩ => rfl
  show k1_pay1 (iblk1 V c 1 t) (iblk1 V c 2 t) (iblk1 V c 0 t) (iblk1 V c 3 t) ((cfg1.win 4).xinj (grid1.coords t) y)
    = secondLayer V c (((cfg1.win 4).blk t).view.emb y)
  rw [hy]
  refine payload_blocks V c t _ _ _ ?_ ?_
  · show win1_4.index t (0 : Fin 2) * 5000 + 1 * (y 0).val = t.val * 5000 + (y 0).val
    rw [e0]; omega
  · show win1_4.index t (1 : Fin 2) * 64 + 1 * (y 1).val = (y 1).val
    rw [e1]; omega

/-! ## The twenty blocks cover the array -/

/-- An index of the array is in point t's block iff each coordinate is in the block's range on its axis. -/
theorem mem_block (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v15).slice (win1_4.rect t)).set ↔ _
  rw [View.set_slice_whole, Rect.mem_set_unit]
  exact Iff.rfl

/-- Row r of the array is written by point r / 5000. -/
theorem rows_covered (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, -, -, -, -, e0, e1⟩ := index_maps ⟨(i 0).val / 5000, ht⟩
  refine ⟨⟨(i 0).val / 5000, ht⟩, flush1_4 _, ?_⟩
  rw [mem_block]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_4.index ⟨(i 0).val / 5000, ht⟩ (1 : Fin 2) * 64 ≤ (i 1).val
      ∧ (i 1).val < win1_4.index ⟨(i 0).val / 5000, ht⟩ (1 : Fin 2) * 64 + 64
    rw [e1]
    omega

/-! ## The whole array -/

/-- The output array after the region: the second layer of the four window arrays as the region found them. -/
theorem arr_out (c : Dev nD) :
    ((dat1 (F := Ideal) V c).arrAt 4 cfg1.N : Arr 100000 64)
      = layer2 (V c (Pipeline.arrRef spec1 0)) (V c (Pipeline.arrRef spec1 1)) (rowOf (V c (Pipeline.arrRef spec1 3)))
          (V c (Pipeline.arrRef spec1 2)) :=
  (dat1 (F := Ideal) V c).arrAt_eq_of_cover 4 (secondLayer V c) (fun t _ => written_back V c t) rows_covered

end Cert.KernelIdeal.Region1

end
-- ==== Proof.KerValue.lean ====
/-
  The kernel's result as one function of its arguments.

  The last pallas_call's output array is the second layer of what that call found in its four windows; the aggregate
  among them is the host's aggregation of the first call's projected output, the hidden rows are the first call's first
  output, and the first call's windows hold the host's aggregation of the node features, the features and the weights
  as launched.  Substituting from the end back to the launch, and reading both aggregations as segment sums (every
  source row lies inside the table), the result buffer holds the network as the kernel spells it.
-/
import proofs.«407079_j30562987278567_2_alg».proof.Proof.KerRun
import proofs.«407079_j30562987278567_2_alg».proof.Proof.KerHost
import proofs.«407079_j30562987278567_2_alg».proof.Proof.KerRegion0
import proofs.«407079_j30562987278567_2_alg».proof.Proof.KerRegion1

set_option maxRecDepth 16384

noncomputable section

namespace Cert.KernelIdeal.KerValue

open Idealize.ShloMosaic Idealize.ShloMosaic.TcCoe Idealize.SL.Sem Idealize.ShloMosaic.ValueIdx
open Cert.KernelIdeal Cert.KernelIdeal.Gen Cert.GraphConv Cert.KernelIdeal.KerHost
open scoped BigOperators

variable (m : (ℓ : Loc nD τ sig) → Buf (Elt Ideal) ℓ) (ρ : Dev nD → PrngReg)

/-- The hidden rows: the first pallas_call's first output, as a function of the arguments. -/
theorem hidden_eq (c : Dev nD)
    (hsrc : ∀ t : Fin 1600000, 0 ≤ (((m ((c.tc : Thread nD τ).loc main_arg1)) : IVec SEI 32) (ix2 (0 : Fin 2) t)).toInt
      ∧ (((m ((c.tc : Thread nD τ).loc main_arg1)) : IVec SEI 32) (ix2 (0 : Fin 2) t)).toInt < 100000) :
    ((dat0 (F := Ideal) (V3 m ρ) c).arrAt 6 cfg0.N : Arr 100000 128)
      = hiddenKer (segsum (srcRow (m ((c.tc : Thread nD τ).loc main_arg1))) (dstRow (m ((c.tc : Thread nD τ).loc main_arg1))) (m ((c.tc : Thread nD τ).loc main_arg0))) (m ((c.tc : Thread nD τ).loc main_arg0))
          (m ((c.tc : Thread nD τ).loc main_arg2)) (m ((c.tc : Thread nD τ).loc main_arg3)) (m ((c.tc : Thread nD τ).loc main_arg4)) := by
  rw [Cert.KernelIdeal.Region0.arr_hidden (V3 m ρ) c]
  have a0 : (V3 m ρ c (Pipeline.arrRef spec0 0) : Arr 100000 128)
      = segsum (srcRow (m ((c.tc : Thread nD τ).loc main_arg1))) (dstRow (m ((c.tc : Thread nD τ).loc main_arg1))) (m ((c.tc : Thread nD τ).loc main_arg0)) :=
    (W3_v9 m ρ c).trans (aggK128_eq _ _ hsrc)
  have a1 : (V3 m ρ c (Pipeline.arrRef spec0 1) : Arr 100000 128) = (m ((c.tc : Thread nD τ).loc main_arg0)) := W3_arg0 m ρ c
  have a2 : (V3 m ρ c (Pipeline.arrRef spec0 2) : Arr 128 128) = (m ((c.tc : Thread nD τ).loc main_arg2)) := W3_arg2 m ρ c
  have a3 : rowOf (V3 m ρ c (Pipeline.arrRef spec0 3) : Arr 1 128) = (m ((c.tc : Thread nD τ).loc main_arg3)) :=
    (congrArg rowOf (W3_v4 m ρ c)).trans (rowOf_shapeCast _ _)
  have a4 : (V3 m ρ c (Pipeline.arrRef spec0 4) : Arr 128 128) = (m ((c.tc : Thread nD τ).loc main_arg4)) := W3_arg4 m ρ c
  rw [a0, a1, a2, a3, a4]

/-- The projected rows: the first pallas_call's second output. -/
theorem proj_eq (c : Dev nD)
    (hsrc : ∀ t : Fin 1600000, 0 ≤ (((m ((c.tc : Thread nD τ).loc main_arg1)) : IVec SEI 32) (ix2 (0 : Fin 2) t)).toInt
      ∧ (((m ((c.tc : Thread nD τ).loc main_arg1)) : IVec SEI 32) (ix2 (0 : Fin 2) t)).toInt < 100000) :
    ((dat0 (F := Ideal) (V3 m ρ) c).arrAt 7 cfg0.N : Arr 100000 64)
      = mm (hiddenKer (segsum (srcRow (m ((c.tc : Thread nD τ).loc main_arg1))) (dstRow (m ((c.tc : Thread nD τ).loc main_arg1))) (m ((c.tc : Thread nD τ).loc main_arg0))) (m ((c.tc : Thread nD τ).loc main_arg0))
          (m ((c.tc : Thread nD τ).loc main_arg2)) (m ((c.tc : Thread nD τ).loc main_arg3)) (m ((c.tc : Thread nD τ).loc main_arg4))) (m ((c.tc : Thread nD τ).loc main_arg5)) := by
  rw [Cert.KernelIdeal.Region0.arr_proj (V3 m ρ) c]
  have a0 : (V3 m ρ c (Pipeline.arrRef spec0 0) : Arr 100000 128)
      = segsum (srcRow (m ((c.tc : Thread nD τ).loc main_arg1))) (dstRow (m ((c.tc : Thread nD τ).loc main_arg1))) (m ((c.tc : Thread nD τ).loc main_arg0)) :=
    (W3_v9 m ρ c).trans (aggK128_eq _ _ hsrc)
  have a1 : (V3 m ρ c (Pipeline.arrRef spec0 1) : Arr 100000 128) = (m ((c.tc : Thread nD τ).loc main_arg0)) := W3_arg0 m ρ c
  have a2 : (V3 m ρ c (Pipeline.arrRef spec0 2) : Arr 128 128) = (m ((c.tc : Thread nD τ).loc main_arg2)) := W3_arg2 m ρ c
  have a3 : rowOf (V3 m ρ c (Pipeline.arrRef spec0 3) : Arr 1 128) = (m ((c.tc : Thread nD τ).loc main_arg3)) :=
    (congrArg rowOf (W3_v4 m ρ c)).trans (rowOf_shapeCast _ _)
  have a4 : (V3 m ρ c (Pipeline.arrRef spec0 4) : Arr 128 128) = (m ((c.tc : Thread nD τ).loc main_arg4)) := W3_arg4 m ρ c
  have a5 : (V3 m ρ c (Pipeline.arrRef spec0 5) : Arr 128 64) = (m ((c.tc : Thread nD τ).loc main_arg5)) := W3_arg5 m ρ c
  rw [a0, a1, a2, a3, a4, a5]

/-- The result buffer at the last boundary: the network as the kernel spells it. -/
theorem result_eq (c : Dev nD)
    (hsrc : ∀ t : Fin 1600000, 0 ≤ (((m ((c.tc : Thread nD τ).loc main_arg1)) : IVec SEI 32) (ix2 (0 : Fin 2) t)).toInt
      ∧ (((m ((c.tc : Thread nD τ).loc main_arg1)) : IVec SEI 32) (ix2 (0 : Fin 2) t)).toInt < 100000) :
    (W7 m ρ c (Proc.devRef .tc main_v15) : Arr 100000 64)
      = netKer (srcRow (m ((c.tc : Thread nD τ).loc main_arg1))) (dstRow (m ((c.tc : Thread nD τ).loc main_arg1))) (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := by
  have e : W7 m ρ c (Proc.devRef .tc main_v15) = (dat1 (V6 m ρ) c).arrAt 4 cfg1.N := W7_arr m ρ c 4
  rw [e, Cert.KernelIdeal.Region1.arr_out (V6 m ρ) c]
  have b0 : (V6 m ρ c (Pipeline.arrRef spec1 0) : Arr 100000 64)
      = segsum (srcRow (m ((c.tc : Thread nD τ).loc main_arg1))) (dstRow (m ((c.tc : Thread nD τ).loc main_arg1)))
          (mm (hiddenKer (segsum (srcRow (m ((c.tc : Thread nD τ).loc main_arg1))) (dstRow (m ((c.tc : Thread nD τ).loc main_arg1))) (m ((c.tc : Thread nD τ).loc main_arg0))) (m ((c.tc : Thread nD τ).loc main_arg0))
            (m ((c.tc : Thread nD τ).loc main_arg2)) (m ((c.tc : Thread nD τ).loc main_arg3)) (m ((c.tc : Thread nD τ).loc main_arg4))) (m ((c.tc : Thread nD τ).loc main_arg5))) := by
    refine (W6_v14 m ρ c).trans ?_
    rw [W4_proj, proj_eq m ρ c hsrc]
    exact aggK64_eq _ _ hsrc
  have b1 : (V6 m ρ c (Pipeline.arrRef spec1 1) : Arr 100000 128)
      = hiddenKer (segsum (srcRow (m ((c.tc : Thread nD τ).loc main_arg1))) (dstRow (m ((c.tc : Thread nD τ).loc main_arg1))) (m ((c.tc : Thread nD τ).loc main_arg0))) (m ((c.tc : Thread nD τ).loc main_arg0))
          (m ((c.tc : Thread nD τ).loc main_arg2)) (m ((c.tc : Thread nD τ).loc main_arg3)) (m ((c.tc : Thread nD τ).loc main_arg4)) :=
    ((W6_hidden m ρ c).trans (W4_hidden m ρ c)).trans (hidden_eq m ρ c hsrc)
  have b2 : (V6 m ρ c (Pipeline.arrRef spec1 2) : Arr 128 64) = (m ((c.tc : Thread nD τ).loc main_arg7)) := (W6_arg7 m ρ c).trans (W4_arg7 m ρ c)
  have b3 : rowOf (V6 m ρ c (Pipeline.arrRef spec1 3) : Arr 1 64) = (m ((c.tc : Thread nD τ).loc main_arg6)) :=
    (congrArg rowOf ((W6_v5 m ρ c).trans (W4_v5 m ρ c))).trans (rowOf_shapeCast _ _)
  rw [b0, b1, b2, b3]
  rfl

/-- Every weakly fair execution of the idealized kernel ends with its result at the network of its arguments,
    spelled the kernel's way, and the arguments unchanged — when every source row lies inside the table. -/
theorem run_value
    (hsrc : ∀ c : Dev nD, ∀ t : Fin 1600000, 0 ≤ (((m ((c.tc : Thread nD τ).loc main_arg1)) : IVec SEI 32) (ix2 (0 : Fin 2) t)).toInt
      ∧ (((m ((c.tc : Thread nD τ).loc main_arg1)) : IVec SEI 32) (ix2 (0 : Fin 2) t)).toInt < 100000) :
    θ_run (defs (F := Ideal)) (onTc (τ := τ) (main (F := Ideal))) ⟨m, fun _ => 0, ρ⟩ (fun r => ∀ c : Dev nD,
      r.2.mem ((c.tc : Thread nD τ).loc main_v15)
        = netKer (srcRow (m ((c.tc : Thread nD τ).loc main_arg1))) (dstRow (m ((c.tc : Thread nD τ).loc main_arg1))) (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun _ h c => ⟨(h c).1.trans (result_eq m ρ c (hsrc c)), (h c).2⟩)
    (Cert.KernelIdeal.KerRun.run_result m ρ)

end Cert.KernelIdeal.KerValue

end
-- ==== Proof.RefValue.lean ====
/-
  The reference's result as one function of its arguments: the network with the segment sum taken before each
  projection and the bias added between the two products.  Every operation of its straight line is read at an
  index: the two gathers and the two scatter-adds as row reads and segment sums over the edge list's columns, the four
  products as sums over the contracted axis, the biases as row broadcasts.
-/
import proofs.«407079_j30562987278567_2_alg».proof.Proof.Gen.ReferenceIdeal.Run
import proofs.«407079_j30562987278567_2_alg».proof.Proof.Gen.ReferenceIdeal.Read
import proofs.«407079_j30562987278567_2_alg».proof.Proof.Spec
import proofs.«407079_j30562987278567_2_alg».proof.Proof.LibRowOps
import proofs.«407079_j30562987278567_2_alg».proof.Proof.LibRowTake
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.GraphConv
open scoped BigOperators

open Cert.ReferenceIdeal.Gen Cert.ReferenceIdeal.Read

/-! ## The edge list's columns, as the program builds them -/

theorem v9_eq (ei : IVec SEI 32) : val_main_v9 (F := Ideal) ei = srcCol ei := rfl
theorem v30_eq (ei : IVec SEI 32) : val_main_v30 (F := Ideal) ei = srcCol ei := rfl
theorem v12_eq (ei : IVec SEI 32) : val_main_v12 (F := Ideal) ei = dstCol ei := rfl
theorem v33_eq (ei : IVec SEI 32) : val_main_v33 (F := Ideal) ei = dstCol ei := rfl

/-! ## The broadcast zero -/

theorem v11_zero (i : S100000x128.Idx) : val_main_v11 (F := Ideal) i = 0 := by
  rw [val_main_v11_apply, val_main_cst_apply, Ideal.ofBits_def, Ideal.ofBits_zero_f32]
theorem v32_zero (i : S100000x128.Idx) : val_main_v32 (F := Ideal) i = 0 := by
  rw [val_main_v32_apply, val_main_cst_3_apply, Ideal.ofBits_def, Ideal.ofBits_zero_f32]
theorem relu_zero (i : S100000x128.Idx) : val_main_call0_v0 (F := Ideal) i = 0 := by
  rw [val_main_call0_v0_apply, val_main_call0_cst_apply, Ideal.ofBits_def, Ideal.ofBits_zero_f32]

/-! ## A gather of the source rows scattered onto the destination rows is the segment sum -/

theorem agg_eq (z : FVec Ideal S100000x128 .f32) (hz : ∀ i, z i = 0) (x : Arr 100000 128) (ei : IVec SEI 32) :
    Host.scatterAdd scatter_S100000x128_S1600000x1_S1600000x128_1_0_0_1 z (dstCol ei)
        (Host.gather gather_S100000x128_S1600000x1_S1600000x128_1_0_n_n_0_1_1128 x (srcCol ei))
      = segsum (srcRow ei) (dstRow ei) x := by
  funext i
  obtain ⟨p, j, rfl⟩ : ∃ (p : Fin 100000) (j : Fin 128), i = ix2 p j := ⟨i 0, i 1, eq_ix2 i⟩
  rw [segsum_apply, Cert.LibRowTake.scatterAdd_rows_apply _ rfl rfl rfl rfl, hz, zero_add]
  refine Finset.sum_congr rfl fun t _ => ?_
  rw [Cert.LibRowTake.gather_rows_apply _ rfl rfl rfl rfl rfl (by decide)]
  rfl

/-! ## The bias rows -/

theorem v16_apply (b1 : Row 128) (p : Fin 100000) (j : Fin 128) : val_main_v16 (F := Ideal) b1 (ix2 p j) = b1 (ix1 j) := by
  rw [val_main_v16_apply, val_main_v15_apply]
  exact congrArg b1 (funext fun a => by match a with | ⟨0, _⟩ => rfl)
theorem v37_apply (b2 : Row 64) (p : Fin 100000) (j : Fin 64) : val_main_v37 (F := Ideal) b2 (ix2 p j) = b2 (ix1 j) := by
  rw [val_main_v37_apply, val_main_v36_apply]
  exact congrArg b2 (funext fun a => by match a with | ⟨0, _⟩ => rfl)

/-! ## The first layer -/

theorem v13_eq (x : Arr 100000 128) (ei : IVec SEI 32) :
    val_main_v13 (F := Ideal) x ei = segsum (srcRow ei) (dstRow ei) x := by
  unfold val_main_v13 val_main_v10
  rw [v12_eq, v9_eq]
  exact agg_eq _ v11_zero x ei

theorem v20_eq (x : Arr 100000 128) (ei : IVec SEI 32) (w1r : Arr 128 128) (b1 : Row 128) (w1o : Arr 128 128) :
    val_main_v20 (F := Ideal) x ei w1r b1 w1o = hiddenRef (segsum (srcRow ei) (dstRow ei) x) x w1r b1 w1o := by
  funext i
  obtain ⟨p, j, rfl⟩ : ∃ (p : Fin 100000) (j : Fin 128), i = ix2 p j := ⟨i 0, i 1, eq_ix2 i⟩
  have h14 : val_main_v14 (F := Ideal) x ei w1r (ix2 p j) = mm (segsum (srcRow ei) (dstRow ei) x) w1r (ix2 p j) := by
    unfold val_main_v14
    rw [v13_eq]
    exact Cert.LibRowOps.dotGeneral_plain_apply _ rfl none _ _ p j
  have h18 : val_main_v18 (F := Ideal) x w1o (ix2 p j) = mm x w1o (ix2 p j) := by
    unfold val_main_v18
    exact Cert.LibRowOps.dotGeneral_plain_apply _ rfl none _ _ p j
  rw [val_main_v20_apply, val_main_v19_apply, val_main_v17_apply, h14, h18, v16_apply, relu_zero,
    Ideal.addf_def, Ideal.addf_def, Ideal.maximumf_def]
  rfl

/-! ## The second layer -/

theorem v34_eq (x : Arr 100000 128) (ei : IVec SEI 32) (w1r : Arr 128 128) (b1 : Row 128) (w1o : Arr 128 128) :
    val_main_v34 (F := Ideal) x ei w1r b1 w1o
      = segsum (srcRow ei) (dstRow ei) (hiddenRef (segsum (srcRow ei) (dstRow ei) x) x w1r b1 w1o) := by
  unfold val_main_v34 val_main_v31
  rw [v33_eq, v30_eq, v20_eq]
  exact agg_eq _ v32_zero _ ei

/-- The reference's last stage is the network of its arguments. -/
theorem result_eq (x : Arr 100000 128) (ei : IVec SEI 32) (w1r : Arr 128 128) (b1 : Row 128) (w1o : Arr 128 128)
    (w2r : Arr 128 64) (b2 : Row 64) (w2o : Arr 128 64) :
    val_main_v40 (F := Ideal) x ei w1r b1 w1o w2r b2 w2o = netRef (srcRow ei) (dstRow ei) x w1r b1 w1o w2r b2 w2o := by
  funext i
  obtain ⟨p, j, rfl⟩ : ∃ (p : Fin 100000) (j : Fin 64), i = ix2 p j := ⟨i 0, i 1, eq_ix2 i⟩
  have h35 : val_main_v35 (F := Ideal) x ei w1r b1 w1o w2r (ix2 p j)
      = mm (segsum (srcRow ei) (dstRow ei) (hiddenRef (segsum (srcRow ei) (dstRow ei) x) x w1r b1 w1o)) w2r (ix2 p j) := by
    unfold val_main_v35
    rw [v34_eq]
    exact Cert.LibRowOps.dotGeneral_plain_apply _ rfl none _ _ p j
  have h39 : val_main_v39 (F := Ideal) x ei w1r b1 w1o w2o (ix2 p j)
      = mm (hiddenRef (segsum (srcRow ei) (dstRow ei) x) x w1r b1 w1o) w2o (ix2 p j) := by
    unfold val_main_v39
    rw [v20_eq]
    exact Cert.LibRowOps.dotGeneral_plain_apply _ rfl none _ _ p j
  rw [val_main_v40_apply, val_main_v38_apply, h35, h39, v37_apply, Ideal.addf_def, Ideal.addf_def]
  rfl

/-- Every weakly fair execution of the reference ends with its result at the network of its arguments, and the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v40)
        = netRef (srcRow (m ((c.tc : Thread nD τ).loc main_arg1))) (dstRow (m ((c.tc : Thread nD τ).loc main_arg1)))
            (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono
    (fun _ h c => ⟨(h c).1.trans ((val_main_v40_eq m c).trans (result_eq _ _ _ _ _ _ _ _)), (h c).2⟩)
    (Cert.ReferenceIdeal.Value.run (F := Ideal) m ρ)

end Cert.ReferenceIdeal.RefValue

end
-- ==== Proof.lean ====
/-
  Two graph-convolution layers, `out = segsum h · W2_rel + b2 + h · W2_root` over `h = max (segsum x · W1_rel + b1 + x · W1_root, 0)`,
  where `segsum f` adds, for each node, the rows of `f` at the sources of the edges that point at it.

  The kernel computes the same network in another order.  It adds the first layer's bias after both products, and it
  projects the hidden rows through `W2_rel` BEFORE the second segment sum: `segsum (h · W2_rel)` in place of
  `(segsum h) · W2_rel`.  A segment sum is linear, so the two agree on real numbers; on the extended reals a product
  does not distribute over a sum that mixes infinities, which is where the finiteness of the inputs is used: every
  entry of `h` is then a real number.  The kernel also reads a source row through a gather that fills the row with a
  fill value when the index is outside the table, where the reference's gather clamps the index; under the
  precondition every source row lies inside the table and the two reads are one.

  Each program's result is first written as one function of its argument arrays (`netKer`, `netRef`): the reference's
  from its generated run read one operation at a time, the kernel's from the generated frame — each pallas_call's
  blocks joined into whole arrays, the host stretches between them read as segment sums.  The three frames are the
  generated ones; the idealization rewrote nothing, so `preserves` is trivial.
-/
import proofs.«407079_j30562987278567_2_alg».proof.Defs
import proofs.«407079_j30562987278567_2_alg».proof.Proof.Gen.Kernel
import proofs.«407079_j30562987278567_2_alg».proof.Proof.Gen.Kernel.Frame
import proofs.«407079_j30562987278567_2_alg».proof.Proof.Gen.KernelIdeal
import proofs.«407079_j30562987278567_2_alg».proof.Proof.Gen.KernelIdeal.Frame
import proofs.«407079_j30562987278567_2_alg».proof.Proof.Gen.ReferenceIdeal
import proofs.«407079_j30562987278567_2_alg».proof.Proof.Gen.Pre_finite_inputs
import proofs.«407079_j30562987278567_2_alg».proof.Proof.Spec
import proofs.«407079_j30562987278567_2_alg».proof.Proof.Algebra
import proofs.«407079_j30562987278567_2_alg».proof.Proof.PreFacts
import proofs.«407079_j30562987278567_2_alg».proof.Proof.KerValue
import proofs.«407079_j30562987278567_2_alg».proof.Proof.RefValue
import Idealize.ShloMosaic.Adequacy
import Idealize.ShloMosaic.Init

noncomputable section

namespace Cert.Proof

open Idealize.ShloMosaic Idealize.ShloMosaic.TcCoe Idealize.SL.Sem Cert.GraphConv

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run_value m ρ)

/-- Both programs end at the network of the arguments, the kernel at its own spelling of it; on the real inputs
    the precondition grants, with every source row inside the table, the two spellings are one function. -/
theorem algebraic : Cert.algebraic_KernelIdeal_ReferenceIdeal := by
  intro m ρ m' ρ' hpre hagree
  have hp := fun c => Cert.PreFacts.of_pre _ _ _ _ _ _ _ _ (hpre c)
  refine ⟨_, Cert.KernelIdeal.KerValue.run_value m ρ (fun c => (hp c).2.2.2.2.2.2.2), ?_⟩
  refine (θ_run Cert.ReferenceIdeal.defs _ _).mono (fun _ h c => ⟨(h c).1.trans ?_, (h c).2⟩)
    (Cert.ReferenceIdeal.RefValue.run_value m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (netKer_eq_netRef _ _ _ _ _ _ _ _ _ (hp c).1 (hp c).2.1 (hp c).2.2.1 (hp c).2.2.2.1 (hp c).2.2.2.2.1).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
